-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S3x32 : Shape := ⟨2, ![3, 32]⟩
abbrev S32x1x1 : Shape := ⟨3, ![32, 1, 1]⟩
abbrev S100000 : Shape := ⟨1, ![100000]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x32 : S_.BroadcastsInDim S3x32 (![] : Fin 0 → Fin S3x32.rank)
  reducesTo_S3x32_S_d0_1 : S3x32.ReducesTo [0, 1] S_
  bcast_S_S32x1x1 : S_.BroadcastsInDim S32x1x1 (![] : Fin 0 → Fin S32x1x1.rank)
  reducesTo_S32x1x1_S_d0_1_2 : S32x1x1.ReducesTo [0, 1, 2] S_

variable [Facts]

def fn {F : FTy → Type} [FloatOps F] (main_arg0 : FVec F S100000x3 .f32) (main_arg1 : FVec F S3x32 .f32) (main_arg2 : FVec F S32x1x1 .f32) (main_arg3 : IVec S100000 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x32 .f32 := Host.absf main_arg1
  let main_cst_0 : FVec F S_ .f32 := constant S_ .f32 0x7F800000#32
  let main_v5 : FVec F S3x32 .f32 := broadcastInDim S3x32 ![] bcast_S_S3x32 main_cst_0
  let main_v6 : IVec S3x32 1 := cmpf .olt main_v4 main_v5
  let main_c_1 : IVec S_ 1 := constantI S_ 1 1#1
  let main_v7 : IVec S_ 1 := (fun x v => Host.reduce IntOp.andi x v reducesTo_S3x32_S_d0_1 h_S_) main_v6 main_c_1
  let main_v8 : IVec S_ 1 := andi main_v3 main_v7
  let main_v9 : FVec F S32x1x1 .f32 := Host.absf main_arg2
  let main_cst_2 : FVec F S_ .f32 := constant S_ .f32 0x7F800000#32
  let main_v10 : FVec F S32x1x1 .f32 := broadcastInDim S32x1x1 ![] bcast_S_S32x1x1 main_cst_2
  let main_v11 : IVec S32x1x1 1 := cmpf .olt main_v9 main_v10
  let main_c_3 : IVec S_ 1 := constantI S_ 1 1#1
  let main_v12 : IVec S_ 1 := (fun x v => Host.reduce IntOp.andi x v reducesTo_S32x1x1_S_d0_1_2 h_S_) main_v11 main_c_3
  let main_v13 : IVec S_ 1 := andi main_v8 main_v12
  main_v13
-- ==== Kernel.lean ====
abbrev S100000x3 : Shape := ⟨2, ![100000, 3]⟩
abbrev S3x32 : Shape := ⟨2, ![3, 32]⟩
abbrev S32x1x1 : Shape := ⟨3, ![32, 1, 1]⟩
abbrev S100000 : Shape := ⟨1, ![100000]⟩
abbrev S32x1 : Shape := ⟨2, ![32, 1]⟩
abbrev S32x32 : Shape := ⟨2, ![32, 32]⟩
abbrev S1x1024 : Shape := ⟨2, ![1, 1024]⟩
abbrev S100000x1 : Shape := ⟨2, ![100000, 1]⟩
abbrev S2x32x1024 : Shape := ⟨3, ![2, 32, 1024]⟩
abbrev S5000x3 : Shape := ⟨2, ![5000, 3]⟩
abbrev S5000x1 : Shape := ⟨2, ![5000, 1]⟩
abbrev S1x32x1024 : Shape := ⟨3, ![1, 32, 1024]⟩
abbrev S5000x32 : Shape := ⟨2, ![5000, 32]⟩
abbrev S1x32 : Shape := ⟨2, ![1, 32]⟩
abbrev S5000x128 : Shape := ⟨2, ![5000, 128]⟩
abbrev S32x1024 : Shape := ⟨2, ![32, 1024]⟩
abbrev S1x128 : Shape := ⟨2, ![1, 128]⟩
abbrev S32x128 : Shape := ⟨2, ![32, 128]⟩
abbrev S1x32x128 : Shape := ⟨3, ![1, 32, 128]⟩
abbrev S32x32x32 : Shape := ⟨3, ![32, 32, 32]⟩
abbrev S_ : Shape := ⟨0, ![]⟩
abbrev S32 : Shape := ⟨1, ![32]⟩

abbrev nBuf : Space → Nat
  | .hbm => 20
  | .vmem => 8
  | .smem => 0
  | _ => 0

abbrev bufTy : (tb : Table) → Fin (tcTables nBuf tb) → BufTy
  | .hbm, ⟨0, _⟩ => ⟨S100000x3, .f32⟩
  | .hbm, ⟨1, _⟩ => ⟨S3x32, .f32⟩
  | .hbm, ⟨2, _⟩ => ⟨S32x1x1, .f32⟩
  | .hbm, ⟨3, _⟩ => ⟨S100000, .i32⟩
  | .hbm, ⟨4, _⟩ => ⟨S32x1, .f32⟩
  | .hbm, ⟨5, _⟩ => ⟨S32x32, .f32⟩
  | .hbm, ⟨6, _⟩ => ⟨S1x1024, .f32⟩
  | .hbm, ⟨7, _⟩ => ⟨S100000x1, .i32⟩
  | .hbm, ⟨8, _⟩ => ⟨S2x32x1024, .f32⟩
  | .hbm, ⟨9, _⟩ => ⟨S1x32x1024, .f32⟩
  | .hbm, ⟨10, _⟩ => ⟨S32x1024, .f32⟩
  | .hbm, ⟨11, _⟩ => ⟨S1x32x1024, .f32⟩
  | .hbm, ⟨12, _⟩ => ⟨S32x1024, .f32⟩
  | .hbm, ⟨13, _⟩ => ⟨S32x1024, .f32⟩
  | .hbm, ⟨14, _⟩ => ⟨S32x32x32, .f32⟩
  | .hbm, ⟨15, _⟩ => ⟨S_, .f32⟩
  | .hbm, ⟨16, _⟩ => ⟨S32, .f32⟩
  | .hbm, ⟨17, _⟩ => ⟨S32x1x1, .f32⟩
  | .hbm, ⟨18, _⟩ => ⟨S32x32x32, .f32⟩
  | .hbm, ⟨19, _⟩ => ⟨S32x32x32, .f32⟩
  | .local _ .vmem, ⟨0, _⟩ => ⟨S5000x3, .f32⟩
  | .local _ .vmem, ⟨1, _⟩ => ⟨S5000x3, .f32⟩
  | .local _ .vmem, ⟨2, _⟩ => ⟨S5000x1, .i32⟩
  | .local _ .vmem, ⟨3, _⟩ => ⟨S5000x1, .i32⟩
  | .local _ .vmem, ⟨4, _⟩ => ⟨S3x32, .f32⟩
  | .local _ .vmem, ⟨5, _⟩ => ⟨S1x1024, .f32⟩
  | .local _ .vmem, ⟨6, _⟩ => ⟨S1x32x1024, .f32⟩
  | .local _ .vmem, ⟨7, _⟩ => ⟨S1x32x1024, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S32x1x1_S32x1 : S32x1x1.ShapeCasts S32x1
  bcast_S32x1_S32x32_0_1 : S32x1.BroadcastsInDim S32x32 (![0, 1] : Fin 2 → Fin S32x32.rank)
  shapeCasts_S32x32_S1x1024 : S32x32.ShapeCasts S1x1024
  shapeCasts_S100000_S100000x1 : S100000.ShapeCasts S100000x1
  inb_S5000x3_S5000x3_0_0 : ∀ a, (![0, 0] : Fin 2 → Nat) a + S5000x3.size a ≤ S5000x3.size a
  h_S5000x3 : 0 < S5000x3.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S3x32_S3x32_0_0 : ∀ a, (![0, 0] : Fin 2 → Nat) a + S3x32.size a ≤ S3x32.size a
  h_S3x32 : 0 < S3x32.numel
  slices_S5000x3_o0_0_S5000x1 : S5000x3.Slices ![0, 0] S5000x1
  slices_S3x32_o0_0_S1x32 : S3x32.Slices ![0, 0] S1x32
  broadcasts_S5000x1_S5000x32 : S5000x1.Broadcasts S5000x32
  broadcasts_S1x32_S5000x32 : S1x32.Broadcasts S5000x32
  slices_S5000x3_o0_1_S5000x1 : S5000x3.Slices ![0, 1] S5000x1
  slices_S3x32_o1_0_S1x32 : S3x32.Slices ![1, 0] S1x32
  slices_S5000x3_o0_2_S5000x1 : S5000x3.Slices ![0, 2] S5000x1
  slices_S3x32_o2_0_S1x32 : S3x32.Slices ![2, 0] S1x32
  concatenates_S5000x32_S5000x32_S5000x32_S5000x32_S5000x128_d1 : Shape.Concatenates [S5000x32, S5000x32, S5000x32, S5000x32] S5000x128 1
  iota_S5000x32_d1_w32 : S5000x32.Iotas .tc 32 [1]
  natLt_1_32 : 1 < 32
  bitsLt_bf16_f32 : FTy.bits .bf16 < FTy.bits .f32
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  shapeCasts_S32x1024_S1x32x1024 : S32x1024.ShapeCasts S1x32x1024
  inb_S1x1024_S1x128_0_0 : ∀ a, (![0, 0] : Fin 2 → Nat) a + S1x128.size a ≤ S1x1024.size a
  h_S1x128 : 0 < S1x128.numel
  shapeCasts_S1x128_S1x128 : S1x128.ShapeCasts S1x128
  broadcasts_S1x128_S5000x128 : S1x128.Broadcasts S5000x128
  inb_S1x32x1024_S1x32x128_0_0_0 : ∀ a, (![0, 0, 0] : Fin 3 → Nat) a + S1x32x128.size a ≤ S1x32x1024.size a
  h_S1x32x128 : 0 < S1x32x128.numel
  shapeCasts_S1x32x128_S32x128 : S1x32x128.ShapeCasts S32x128
  shapeCasts_S32x128_S1x32x128 : S32x128.ShapeCasts S1x32x128
  inb_S1x1024_S1x128_0_128 : ∀ a, (![0, 128] : Fin 2 → Nat) a + S1x128.size a ≤ S1x1024.size a
  inb_S1x32x1024_S1x32x128_0_0_128 : ∀ a, (![0, 0, 128] : Fin 3 → Nat) a + S1x32x128.size a ≤ S1x32x1024.size a
  inb_S1x1024_S1x128_0_256 : ∀ a, (![0, 256] : Fin 2 → Nat) a + S1x128.size a ≤ S1x1024.size a
  inb_S1x32x1024_S1x32x128_0_0_256 : ∀ a, (![0, 0, 256] : Fin 3 → Nat) a + S1x32x128.size a ≤ S1x32x1024.size a
  inb_S1x1024_S1x128_0_384 : ∀ a, (![0, 384] : Fin 2 → Nat) a + S1x128.size a ≤ S1x1024.size a
  inb_S1x32x1024_S1x32x128_0_0_384 : ∀ a, (![0, 0, 384] : Fin 3 → Nat) a + S1x32x128.size a ≤ S1x32x1024.size a
  inb_S1x1024_S1x128_0_512 : ∀ a, (![0, 512] : Fin 2 → Nat) a + S1x128.size a ≤ S1x1024.size a
  inb_S1x32x1024_S1x32x128_0_0_512 : ∀ a, (![0, 0, 512] : Fin 3 → Nat) a + S1x32x128.size a ≤ S1x32x1024.size a
  inb_S1x1024_S1x128_0_640 : ∀ a, (![0, 640] : Fin 2 → Nat) a + S1x128.size a ≤ S1x1024.size a
  inb_S1x32x1024_S1x32x128_0_0_640 : ∀ a, (![0, 0, 640] : Fin 3 → Nat) a + S1x32x128.size a ≤ S1x32x1024.size a
  inb_S1x1024_S1x128_0_768 : ∀ a, (![0, 768] : Fin 2 → Nat) a + S1x128.size a ≤ S1x1024.size a
  inb_S1x32x1024_S1x32x128_0_0_768 : ∀ a, (![0, 0, 768] : Fin 3 → Nat) a + S1x32x128.size a ≤ S1x32x1024.size a
  inb_S1x1024_S1x128_0_896 : ∀ a, (![0, 896] : Fin 2 → Nat) a + S1x128.size a ≤ S1x1024.size a
  inb_S1x32x1024_S1x32x128_0_0_896 : ∀ a, (![0, 0, 896] : Fin 3 → Nat) a + S1x32x128.size a ≤ S1x32x1024.size a
  slices_S2x32x1024_S1x32x1024_0_0_0 : S2x32x1024.Slices ![0, 0, 0] S1x32x1024
  slices_S2x32x1024_S1x32x1024_1_0_0 : S2x32x1024.Slices ![1, 0, 0] S1x32x1024
  shapeCasts_S32x1024_S32x32x32 : S32x1024.ShapeCasts S32x32x32
  reducesTo_S32x32x32_S32_d1_2 : S32x32x32.ReducesTo [1, 2] S32
  h_S_ : 0 < S_.numel
  bcast_S32_S32x1x1_0 : S32.BroadcastsInDim S32x1x1 (![0] : Fin 1 → Fin S32x1x1.rank)
  bcast_S32x1x1_S32x32x32_0_1_2 : S32x1x1.BroadcastsInDim S32x32x32 (![0, 1, 2] : Fin 3 → Fin S32x32x32.rank)
  dot_S5000x32_S5000x128_S32x128_0_0_1_1_n_n_wf : DotDims.WF S5000x32 S5000x128 S32x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .i32 = 32 ∨ (Rect.block (s := S100000x1) S5000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x32.size a ≤ S3x32.size a
  hwx0_2 : ∀ i : grid0.Coords, EltTy.bits .f32 = 32 ∨ (Rect.block (s := S3x32) S3x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x1024.size a ≤ S2x32x1024.size a
  hwx0_4 : ∀ i : grid0.Coords, EltTy.bits .f32 = 32 ∨ (Rect.block (s := S2x32x1024) S1x32x1024.size (cc0_transform_4 i) (hinb0_4 i)).WholeWords (EltTy.packing .f32)

variable [Facts₀]

def dot_S5000x32_S5000x128_S32x128_0_0_1_1_n_n : DotDims S5000x32 S5000x128 S32x128 where
  lhsContracting := [0]
  rhsContracting := [0]
  lhsNonContracting := [1]
  rhsNonContracting := [1]
  lhsBatch := []
  rhsBatch := []
  wf := dot_S5000x32_S5000x128_S32x128_0_0_1_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S3x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x32x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x3 : Shape := ⟨2, ![100000, 3]⟩
abbrev S3x32 : Shape := ⟨2, ![3, 32]⟩
abbrev S32x1x1 : Shape := ⟨3, ![32, 1, 1]⟩
abbrev S100000 : Shape := ⟨1, ![100000]⟩
abbrev S100000x32 : Shape := ⟨2, ![100000, 32]⟩
abbrev S1x100000x32 : Shape := ⟨3, ![1, 100000, 32]⟩
abbrev S32x100000x32 : Shape := ⟨3, ![32, 100000, 32]⟩
abbrev S_ : Shape := ⟨0, ![]⟩
abbrev S100000x32x32 : Shape := ⟨3, ![100000, 32, 32]⟩
abbrev S32x32x32 : Shape := ⟨3, ![32, 32, 32]⟩
abbrev S100000x1 : Shape := ⟨2, ![100000, 1]⟩
abbrev S32 : Shape := ⟨1, ![32]⟩

abbrev nBuf : Space → Nat
  | .hbm => 30
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S3x32, .f32⟩
  | .hbm, ⟨2, _⟩ => ⟨S32x1x1, .f32⟩
  | .hbm, ⟨3, _⟩ => ⟨S100000, .i32⟩
  | .hbm, ⟨4, _⟩ => ⟨S100000x32, .f32⟩
  | .hbm, ⟨5, _⟩ => ⟨S1x100000x32, .f32⟩
  | .hbm, ⟨6, _⟩ => ⟨S32x100000x32, .f32⟩
  | .hbm, ⟨7, _⟩ => ⟨S32x100000x32, .f32⟩
  | .hbm, ⟨8, _⟩ => ⟨S32x100000x32, .f32⟩
  | .hbm, ⟨9, _⟩ => ⟨S_, .f32⟩
  | .hbm, ⟨10, _⟩ => ⟨S32x100000x32, .f32⟩
  | .hbm, ⟨11, _⟩ => ⟨S32x100000x32, .f32⟩
  | .hbm, ⟨12, _⟩ => ⟨S32x100000x32, .f32⟩
  | .hbm, ⟨13, _⟩ => ⟨S32x100000x32, .f32⟩
  | .hbm, ⟨14, _⟩ => ⟨S_, .f32⟩
  | .hbm, ⟨15, _⟩ => ⟨S32x100000x32, .f32⟩
  | .hbm, ⟨16, _⟩ => ⟨S32x100000x32, .f32⟩
  | .hbm, ⟨17, _⟩ => ⟨S_, .f32⟩
  | .hbm, ⟨18, _⟩ => ⟨S32x100000x32, .f32⟩
  | .hbm, ⟨19, _⟩ => ⟨S32x100000x32, .f32⟩
  | .hbm, ⟨20, _⟩ => ⟨S100000x32x32, .f32⟩
  | .hbm, ⟨21, _⟩ => ⟨S_, .f32⟩
  | .hbm, ⟨22, _⟩ => ⟨S32x32x32, .f32⟩
  | .hbm, ⟨23, _⟩ => ⟨S100000x1, .i32⟩
  | .hbm, ⟨24, _⟩ => ⟨S32x32x32, .f32⟩
  | .hbm, ⟨25, _⟩ => ⟨S_, .f32⟩
  | .hbm, ⟨26, _⟩ => ⟨S32, .f32⟩
  | .hbm, ⟨27, _⟩ => ⟨S32x1x1, .f32⟩
  | .hbm, ⟨28, _⟩ => ⟨S32x32x32, .f32⟩
  | .hbm, ⟨29, _⟩ => ⟨S32x32x32, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S100000x32_S1x100000x32_1_2 : S100000x32.BroadcastsInDim S1x100000x32 (![1, 2] : Fin 2 → Fin S1x100000x32.rank)
  bcast_S32x1x1_S32x100000x32_0_1_2 : S32x1x1.BroadcastsInDim S32x100000x32 (![0, 1, 2] : Fin 3 → Fin S32x100000x32.rank)
  bcast_S1x100000x32_S32x100000x32_0_1_2 : S1x100000x32.BroadcastsInDim S32x100000x32 (![0, 1, 2] : Fin 3 → Fin S32x100000x32.rank)
  bcast_S_S32x100000x32 : S_.BroadcastsInDim S32x100000x32 (![] : Fin 0 → Fin S32x100000x32.rank)
  transposes_S32x100000x32_S100000x32x32_1_0_2 : S32x100000x32.Transposes [1, 0, 2] S100000x32x32
  bcast_S_S32x32x32 : S_.BroadcastsInDim S32x32x32 (![] : Fin 0 → Fin S32x32x32.rank)
  bcast_S100000_S100000x1_0 : S100000.BroadcastsInDim S100000x1 (![0] : Fin 1 → Fin S100000x1.rank)
  reducesTo_S32x32x32_S32_d1_2 : S32x32x32.ReducesTo [1, 2] S32
  h_S_ : 0 < S_.numel
  bcast_S32_S32x1x1_0 : S32.BroadcastsInDim S32x1x1 (![0] : Fin 1 → Fin S32x1x1.rank)
  bcast_S32x1x1_S32x32x32_0_1_2 : S32x1x1.BroadcastsInDim S32x32x32 (![0, 1, 2] : Fin 3 → Fin S32x32x32.rank)
  dot_S100000x3_S3x32_S100000x32_1_0_0_1_n_n_wf : DotDims.WF S100000x3 S3x32 S100000x32 [1] [0] [0] [1] [] []
  scatter_S32x32x32_S100000x1_S100000x32x32_12_0_0_1_wf : ScatterDims.WF S32x32x32 S100000x1 S100000x32x32 [1, 2] [0] [0] 1

variable [Facts₀]

def dot_S100000x3_S3x32_S100000x32_1_0_0_1_n_n : DotDims S100000x3 S3x32 S100000x32 where
  lhsContracting := [1]
  rhsContracting := [0]
  lhsNonContracting := [0]
  rhsNonContracting := [1]
  lhsBatch := []
  rhsBatch := []
  wf := dot_S100000x3_S3x32_S100000x32_1_0_0_1_n_n_wf
def scatter_S32x32x32_S100000x1_S100000x32x32_12_0_0_1 : ScatterDims S32x32x32 S100000x1 S100000x32x32 where
  updateWindowDims := [1, 2]
  insertedWindowDims := [0]
  scatterDimsToOperandDims := [0]
  indexVectorDim := 1
  wf := scatter_S32x32x32_S100000x1_S100000x32x32_12_0_0_1_wf

class Facts : Prop extends Facts₀ where

variable [Facts]
-- ==== Proof.Chunk.lean ====
/-
  One chunk of the segment sum, read at an index.

  A grid point holds a tile of 5000 points. For each of its eight groups of 128 lanes (four filtration levels times 32
  directions) the body adds to the previous contents of the output block, at segment b and lane q, the sum over the
  tile's rows k of
        onehot k b · (1/2 · tanh (1/2 · (100 · (lin q − height k q))) + 1/2),
  where onehot k b is 1 when row k's segment word is b and 0 otherwise, and height k q is the row's height along the
  direction of lane q. The contraction is the matrix unit's, onto a zero accumulator: a plain sum at the ideal
  instance. All eight groups run the same text; the positional cut of the printed body only splits it in different
  places.
-/
import proofs.«426852_j18545668784265_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Chunk

open Cert.KernelIdeal Cert.KernelIdeal.Gen Idealize.ShloMosaic Idealize.ShloMosaic.TcCoe Idealize.SL.Sem
open Idealize.ShloMosaic.ValueIdx

/-! ## The eight groups are one function -/

section Same
variable {F : FTy → Type} [FloatOps F]

theorem pay7_eq (v23 : FVec F S5000x128 .f32) (v29 : FVec F S5000x32 .bf16) (l : Vec F S1x128 .f32) (old : Vec F S1x32x128 .f32) :
    k0_pay7 v23 v29 l old = k0_pay1 v23 v29 l old := rfl
theorem pay8_eq (v23 : FVec F S5000x128 .f32) (v29 : FVec F S5000x32 .bf16) (l : Vec F S1x128 .f32) (old : Vec F S1x32x128 .f32) :
    k0_pay8 v23 v29 l old = k0_pay1 v23 v29 l old := rfl
theorem pay11_eq (v23 : FVec F S5000x128 .f32) (v29 : FVec F S5000x32 .bf16) (l : Vec F S1x128 .f32) (old : Vec F S1x32x128 .f32) :
    k0_pay11 v23 v29 l old = k0_pay1 v23 v29 l old := rfl
theorem pay14_eq (v23 : FVec F S5000x128 .f32) (v29 : FVec F S5000x32 .bf16) (l : Vec F S1x128 .f32) (old : Vec F S1x32x128 .f32) :
    k0_pay14 v23 v29 l old = k0_pay1 v23 v29 l old := rfl
/-- The group cut after the hyperbolic tangent, the literal one half passed across the cut. -/
theorem pay6_eq (x0 : Vec F S5000x3 .f32) (x2 : Vec F S3x32 .f32) (v29 : FVec F S5000x32 .bf16) (l : Vec F S1x128 .f32) (old : Vec F S1x32x128 .f32) :
    k0_pay6 v29 (k0_pay5 x0 x2 l) (Scalar.ofBits .f32 0x3F000000#32) old = k0_pay1 (k0_pay2 x0 x2) v29 l old := rfl
/-- The group cut after the contraction. -/
theorem pay10_eq (v23 : FVec F S5000x128 .f32) (v29 : FVec F S5000x32 .bf16) (l : Vec F S1x128 .f32) (old : Vec F S1x32x128 .f32) :
    k0_pay10 (k0_pay9 v23 v29 l) old = k0_pay1 v23 v29 l old := rfl
/-- The other group cut after the hyperbolic tangent. -/
theorem pay13_eq (v23 : FVec F S5000x128 .f32) (v29 : FVec F S5000x32 .bf16) (l : Vec F S1x128 .f32) (old : Vec F S1x32x128 .f32) :
    k0_pay13 v29 (k0_pay12 v23 l) (Scalar.ofBits .f32 0x3F000000#32) old = k0_pay1 v23 v29 l old := rfl

end Same

/-! ## The contraction over the tile's rows -/

theorem lhs_0 (j : S32x128.Idx) (q : dot_S5000x32_S5000x128_S32x128_0_0_1_1_n_n.contr.Idx) :
    (dot_S5000x32_S5000x128_S32x128_0_0_1_1_n_n.lhsIdx j q 0).val = (q ⟨0, by decide⟩).val :=
  dot_S5000x32_S5000x128_S32x128_0_0_1_1_n_n.lhsIdx_val_of_single rfl j q
theorem lhs_1 (j : S32x128.Idx) (q : dot_S5000x32_S5000x128_S32x128_0_0_1_1_n_n.contr.Idx) :
    (dot_S5000x32_S5000x128_S32x128_0_0_1_1_n_n.lhsIdx j q 1).val = (j 0).val := by
  unfold DotDims.lhsIdx
  rw [dif_neg (show ¬(1 : Fin S5000x32.rank) ∈ dot_S5000x32_S5000x128_S32x128_0_0_1_1_n_n.lhsBatch by decide), dif_pos (show (1 : Fin S5000x32.rank) ∈ dot_S5000x32_S5000x128_S32x128_0_0_1_1_n_n.lhsNonContracting by decide)]
  rfl
theorem rhs_0 (j : S32x128.Idx) (q : dot_S5000x32_S5000x128_S32x128_0_0_1_1_n_n.contr.Idx) :
    (dot_S5000x32_S5000x128_S32x128_0_0_1_1_n_n.rhsIdx j q 0).val = (q ⟨0, by decide⟩).val :=
  dot_S5000x32_S5000x128_S32x128_0_0_1_1_n_n.rhsIdx_val_of_single rfl j q
theorem rhs_1 (j : S32x128.Idx) (q : dot_S5000x32_S5000x128_S32x128_0_0_1_1_n_n.contr.Idx) :
    (dot_S5000x32_S5000x128_S32x128_0_0_1_1_n_n.rhsIdx j q 1).val = (j 1).val := by
  unfold DotDims.rhsIdx
  rw [dif_neg (show ¬(1 : Fin S5000x128.rank) ∈ dot_S5000x32_S5000x128_S32x128_0_0_1_1_n_n.rhsBatch by decide), dif_pos (show (1 : Fin S5000x128.rank) ∈ dot_S5000x32_S5000x128_S32x128_0_0_1_1_n_n.rhsNonContracting by decide)]
  rfl

/-- The contraction onto a zero accumulator, at segment `b` and lane `q`: the sum over the tile's rows of the two
    operands' entries in that row. -/
theorem matmul_rows (oh : FVec Ideal S5000x32 .bf16) (e : FVec Ideal S5000x128 .bf16) (b : Fin 32) (q : Fin 128) :
    matmul dot_S5000x32_S5000x128_S32x128_0_0_1_1_n_n none oh e (constant S32x128 .f32 0x00000000#32) (ix2 b q)
      = ∑ k : Fin 5000, oh (ix2 k b) * e (ix2 k q) := by
  simp only [matmul]
  rw [Ideal.matmul_constant_zero_apply, ← Equiv.sum_comp (contrEquiv1 dot_S5000x32_S5000x128_S32x128_0_0_1_1_n_n 5000 rfl rfl).symm]
  refine Finset.sum_congr rfl fun k _ => ?_
  have hk := contrEquiv1_symm_val dot_S5000x32_S5000x128_S32x128_0_0_1_1_n_n 5000 rfl rfl k
  have el : dot_S5000x32_S5000x128_S32x128_0_0_1_1_n_n.lhsIdx (ix2 b q) ((contrEquiv1 dot_S5000x32_S5000x128_S32x128_0_0_1_1_n_n 5000 rfl rfl).symm k) = ix2 k b := funext fun a => Fin.ext (by
    match a with
    | ⟨0, _⟩ => exact (lhs_0 _ _).trans hk
    | ⟨1, _⟩ => exact lhs_1 _ _)
  have er : dot_S5000x32_S5000x128_S32x128_0_0_1_1_n_n.rhsIdx (ix2 b q) ((contrEquiv1 dot_S5000x32_S5000x128_S32x128_0_0_1_1_n_n 5000 rfl rfl).symm k) = ix2 k q := funext fun a => Fin.ext (by
    match a with
    | ⟨0, _⟩ => exact (rhs_0 _ _).trans hk
    | ⟨1, _⟩ => exact rhs_1 _ _)
  rw [el, er]

/-! ## A column broadcast over many -/

/-- An `[a, 1]` array broadcast to `[a, b]` reads, at `(p, c)`, the operand's one column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The group at an index -/

/-- The group's function at segment `b` and lane `q`: the previous contents plus the sum over the tile's rows of the
    one-hot entry times the filtration value, the latter in the hyperbolic-tangent form the body computes. -/
theorem group_apply (nh : FVec Ideal S5000x128 .f32) (oh : FVec Ideal S5000x32 .bf16) (l : Vec Ideal S1x128 .f32) (old : Vec Ideal S1x32x128 .f32)
    (b : Fin 32) (q : Fin 128) :
    k0_pay1 nh oh l old (ix3 (0 : Fin 1) b q)
      = old (ix3 (0 : Fin 1) b q)
        + ∑ k : Fin 5000, oh (ix2 k b)
            * (Ideal.ofBits .f32 0x3F000000#32
                * Ideal.tanh (Ideal.ofBits .f32 0x3F000000#32 * (Ideal.ofBits .f32 0x42C80000#32 * (l (ix2 (0 : Fin 1) q) - nh (ix2 k q))))
              + Ideal.ofBits .f32 0x3F000000#32) := by
  unfold k0_pay1
  -- the two unit-axis casts around the addition, then the contraction as a sum over the rows
  rw [shapeCast_ab_1ab_apply, addf_apply, shapeCast_1ab_ab_apply, matmul_rows]
  refine congrArg (old (ix3 (0 : Fin 1) b q) + ·) (Finset.sum_congr rfl fun k _ => ?_)
  refine congrArg (oh (ix2 k b) * ·) ?_
  -- the lin row is read through two identity casts and a broadcast over the rows; the rest is pointwise
  have hl : broadcastTo S5000x128 (shapeCast S1x128 (shapeCast S1x128 l shapeCasts_S1x128_S1x128) shapeCasts_S1x128_S1x128)
      broadcasts_S1x128_S5000x128 (ix2 k q) = l (ix2 (0 : Fin 1) q) := by
    rw [shapeCast_self, shapeCast_self, broadcastTo_1b_ab_apply]
  simp only [truncf_apply, addf_apply, mulf_apply, subf_apply, broadcast_apply, tanh, hl, Ideal.tanh_def, Ideal.ofBits_def]

end Cert.KernelIdeal.Chunk

end
-- ==== Proof.Rows.lean ====
/-
  What a tile's rows hold: the height of a point along a direction, and its segment as a one-hot row.

  The height of row k along direction t is the three-term sum  x k 0 · v 0 t + x k 1 · v 1 t + x k 2 · v 2 t, built up
  from zero one coordinate at a time. The body lays four copies of the 32 directions side by side along the 128 lanes, so
  lane q carries direction q mod 32. The segment word of row k is compared with the lane numbers 0 … 31: the one-hot
  entry at (k, b) is 1 when the word is b and 0 when it is not, whatever the word (a word outside 0 … 31 gives an all-zero row).
-/
import proofs.«426852_j18545668784265_3_alg».proof.Proof.Chunk

noncomputable section

namespace Cert.KernelIdeal.Rows

open Cert.KernelIdeal Cert.KernelIdeal.Gen Idealize.ShloMosaic Idealize.ShloMosaic.TcCoe Idealize.SL.Sem
open Idealize.ShloMosaic.ValueIdx

/-- The direction a lane carries. -/
abbrev dirOf (q : Fin 128) : Fin 32 := ⟨q.val % 32, Nat.mod_lt _ (by decide)⟩

/-- Four copies of one array along the lanes, read at lane `q`: the array at `q mod 32`. -/
theorem lanes_apply (v : FVec Ideal S5000x32 .f32) (k : Fin 5000) (q : Fin 128) :
    concatenate S5000x128 1 [⟨S5000x32, v⟩, ⟨S5000x32, v⟩, ⟨S5000x32, v⟩, ⟨S5000x32, v⟩] concatenates_S5000x32_S5000x32_S5000x32_S5000x32_S5000x128_d1 (ix2 k q)
      = v (ix2 k (dirOf q)) := by
  refine concatenate_replicate_apply (1 : Fin S5000x128.rank) 4 v concatenates_S5000x32_S5000x32_S5000x32_S5000x32_S5000x128_d1 rfl (ix2 k q) (ix2 k (dirOf q)) ?_ ?_
  · rfl
  · intro b hb
    match b with
    | ⟨0, _⟩ => rfl
    | ⟨1, _⟩ => exact absurd rfl hb

/-- One coordinate's product: column `d` of the points, broadcast along the directions, times row `d` of the directions,
    broadcast along the points. -/
theorem coord_apply (x0 : Vec Ideal S5000x3 .f32) (x2 : Vec Ideal S3x32 .f32) (o : Nat) (d : Fin 3) (hd : d.val = o)
    (h0 : S5000x3.Slices (![0, o] : Fin 2 → Nat) S5000x1) (h2 : S3x32.Slices (![o, 0] : Fin 2 → Nat) S1x32) (k : Fin 5000) (t : Fin 32) :
    mulf (F := Ideal) (φ := .f32)
        (broadcastTo S5000x32 (extractStridedSlice S5000x1 (![0, o] : Fin 2 → Nat) x0 h0 : FVec Ideal S5000x1 .f32) broadcasts_S5000x1_S5000x32)
        (broadcastTo S5000x32 (extractStridedSlice S1x32 (![o, 0] : Fin 2 → Nat) x2 h2 : FVec Ideal S1x32 .f32) broadcasts_S1x32_S5000x32) (ix2 k t)
      = x0 (ix2 k d) * x2 (ix2 d t) := by
  rw [mulf_apply, Chunk.broadcastTo_a1_ab_apply, broadcastTo_1b_ab_apply,
    slice2_axis1_apply o x0 h0 k (0 : Fin 1) d (by simp [hd]), slice2_axis0_apply o x2 h2 (0 : Fin 1) t d (by simp [hd])]

/-- The heights at row `k` and lane `q`. -/
theorem heights_apply (x0 : Vec Ideal S5000x3 .f32) (x2 : Vec Ideal S3x32 .f32) (k : Fin 5000) (q : Fin 128) :
    k0_pay2 x0 x2 (ix2 k q)
      = ((Ideal.ofBits .f32 0x00000000#32 + x0 (ix2 k 0) * x2 (ix2 0 (dirOf q))) + x0 (ix2 k 1) * x2 (ix2 1 (dirOf q)))
          + x0 (ix2 k 2) * x2 (ix2 2 (dirOf q)) := by
  unfold k0_pay2
  rw [lanes_apply, addf_apply, addf_apply, addf_apply,
    coord_apply x0 x2 0 0 rfl, coord_apply x0 x2 1 1 rfl, coord_apply x0 x2 2 2 rfl, broadcast_apply]
  rfl

/-- The one-hot entry at row `k` and segment `b`. -/
theorem onehot_apply (x1 : Vec Ideal S5000x1 .i32) (k : Fin 5000) (b : Fin 32) :
    k0_pay3 x1 (ix2 k b) = if x1 (ix2 k (0 : Fin 1)) = BitVec.ofNat 32 b.val then (1 : EReal) else 0 := by
  unfold k0_pay3
  rw [truncf_apply, sitofp_apply, extui_apply]
  show FloatOps.sitofp .f32 (BitVec.setWidth 32 (IntOp.cmpi .eq
      (broadcastTo S5000x32 (shapeCast S5000x1 x1 shapeCasts_S5000x1_S5000x1) broadcasts_S5000x1_S5000x32 (ix2 k b))
      (iota .tc S5000x32 32 [1] iota_S5000x32_d1_w32 (ix2 k b)))) = _
  rw [shapeCast_self, Chunk.broadcastTo_a1_ab_apply, iota_single_apply]
  show (((BitVec.setWidth 32 (BitVec.ofBool (x1 (ix2 k (0 : Fin 1)) == BitVec.ofNat 32 b.val))).toInt : ℝ) : EReal) = _
  by_cases h : x1 (ix2 k (0 : Fin 1)) = BitVec.ofNat 32 b.val
  · rw [if_pos h, h]; simp
  · rw [if_neg h]
    have : (x1 (ix2 k (0 : Fin 1)) == BitVec.ofNat 32 b.val) = false := by simpa using h
    rw [this]; simp

end Cert.KernelIdeal.Rows

end
-- ==== Proof.Point.lean ====
/-
  What one grid point leaves in the output block.

  The block has 32 segments by 1024 lanes; lane c carries filtration level c / 32 and direction c mod 32. A grid point adds,
  at segment b and lane c, the tile's contribution
        ∑ over the tile's rows k of  onehot k b · (1/2 · tanh (1/2 · (100 · (lin c − height k (c mod 128)))) + 1/2)
  to what the block held: at the first point of each half the block is first reset to zero, at the other points it holds
  what the point before left. The eight stores of a point write eight disjoint groups of 128 lanes, each the same
  function of the block's index, so together they leave that one function.
-/
import proofs.«426852_j18545668784265_3_alg».proof.Proof.Gen.KernelIdeal.Frame
import proofs.«426852_j18545668784265_3_alg».proof.Proof.Rows
import Idealize.ShloMosaic.Lib.Pipeline.CanonAppend

set_option maxRecDepth 16384

noncomputable section

namespace Cert.KernelIdeal.Point

open Cert.KernelIdeal Cert.KernelIdeal.Gen Idealize.ShloMosaic Idealize.ShloMosaic.TcCoe Idealize.ShloMosaic.Tactic Idealize.SL.Sem
open Idealize.ShloMosaic.ValueIdx

/-- The lane of a group of 128 that a lane of the block falls on. -/
abbrev laneOf (c : Fin 1024) : Fin 128 := ⟨c.val % 128, Nat.mod_lt _ (by decide)⟩

/-- The tile's contribution at segment `b` and lane `c` of the block. -/
def tileAt (x0 : Vec Ideal S5000x3 .f32) (x1 : Vec Ideal S5000x1 .i32) (x2 : Vec Ideal S3x32 .f32) (x3 : Vec Ideal S1x1024 .f32)
    (b : Fin 32) (c : Fin 1024) : EReal :=
  ∑ k : Fin 5000, k0_pay3 x1 (ix2 k b)
    * (Ideal.ofBits .f32 0x3F000000#32
        * Ideal.tanh (Ideal.ofBits .f32 0x3F000000#32 * (Ideal.ofBits .f32 0x42C80000#32 * (x3 (ix2 (0 : Fin 1) c) - k0_pay2 x0 x2 (ix2 k (laneOf c)))))
      + Ideal.ofBits .f32 0x3F000000#32)

/-- The same as a function of the block's index. -/
def tile (x0 : Vec Ideal S5000x3 .f32) (x1 : Vec Ideal S5000x1 .i32) (x2 : Vec Ideal S3x32 .f32) (x3 : Vec Ideal S1x1024 .f32) :
    S1x32x1024.Idx → EReal := fun y =>
  tileAt x0 x1 x2 x3 ⟨(y 1).val, (y 1).isLt⟩ ⟨(y 2).val, (y 2).isLt⟩

theorem tile_ix3 (x0 : Vec Ideal S5000x3 .f32) (x1 : Vec Ideal S5000x1 .i32) (x2 : Vec Ideal S3x32 .f32) (x3 : Vec Ideal S1x1024 .f32)
    (u : Fin 1) (b : Fin 32) (c : Fin 1024) : tile x0 x1 x2 x3 (ix3 u b c) = tileAt x0 x1 x2 x3 b c := rfl

/-- One group's store, read at a local index: the previous contents at the index's place in the block plus the tile's
    contribution there. `o` is the group's first lane, a multiple of 128. -/
theorem group_piece (x0 : Vec Ideal S5000x3 .f32) (x1 : Vec Ideal S5000x1 .i32) (x2 : Vec Ideal S3x32 .f32) (x3 : Vec Ideal S1x1024 .f32) (xo4 : Vec Ideal S1x32x1024 .f32)
    (o : Nat) (ho : o % 128 = 0)
    (inb3 : ∀ a, (![0, o] : Fin 2 → Nat) a + S1x128.size a ≤ S1x1024.size a)
    (inb6 : ∀ a, (![0, 0, o] : Fin 3 → Nat) a + S1x32x128.size a ≤ S1x32x1024.size a)
    (b : Fin 32) (q : Fin 128) (hq : o + q.val < 1024) :
    k0_pay1 (k0_pay2 x0 x2) (k0_pay3 x1) (View.ld x3 (Rect.unit (s := S1x1024) ![0, o] S1x128.size inb3)) (View.ld xo4 (Rect.unit (s := S1x32x1024) ![0, 0, o] S1x32x128.size inb6)) (ix3 (0 : Fin 1) b q)
      = xo4 (ix3 (0 : Fin 1) b (⟨o + q.val, hq⟩ : Fin 1024)) + tile x0 x1 x2 x3 (ix3 (0 : Fin 1) b (⟨o + q.val, hq⟩ : Fin 1024)) := by
  rw [Chunk.group_apply, tile_ix3]
  -- the group's rectangle starts at lane o: local lane q is the block's lane o + q, on the lin row and on the block alike
  have e6 : View.ld xo4 (Rect.unit (s := S1x32x1024) ![0, 0, o] S1x32x128.size inb6) (ix3 (0 : Fin 1) b q)
      = xo4 (ix3 (0 : Fin 1) b (⟨o + q.val, hq⟩ : Fin 1024)) :=
    congrArg xo4 (funext fun a => Fin.ext (by
      match a with
      | ⟨0, _⟩ => show 0 + 1 * 0 = 0; rfl
      | ⟨1, _⟩ => show 0 + 1 * b.val = b.val; omega
      | ⟨2, _⟩ => show o + 1 * q.val = o + q.val; omega))
  have e3 : View.ld x3 (Rect.unit (s := S1x1024) ![0, o] S1x128.size inb3) (ix2 (0 : Fin 1) q)
      = x3 (ix2 (0 : Fin 1) (⟨o + q.val, hq⟩ : Fin 1024)) :=
    congrArg x3 (funext fun a => Fin.ext (by
      match a with
      | ⟨0, _⟩ => show 0 + 1 * 0 = 0; rfl
      | ⟨1, _⟩ => show o + 1 * q.val = o + q.val; omega))
  -- and, o being a multiple of 128, the block's lane o + q falls on lane q of its group
  have hl : laneOf (⟨o + q.val, hq⟩ : Fin 1024) = q := Fin.ext (by
    show (o + q.val) % 128 = q.val
    have := q.isLt; omega)
  rw [e6, e3]
  unfold tileAt
  rw [hl]

/-- The same with the block's index written as the group's rectangle places the local one. -/
theorem group_piece_emb (x0 : Vec Ideal S5000x3 .f32) (x1 : Vec Ideal S5000x1 .i32) (x2 : Vec Ideal S3x32 .f32) (x3 : Vec Ideal S1x1024 .f32) (xo4 : Vec Ideal S1x32x1024 .f32)
    (o : Nat) (ho : o % 128 = 0) (ho' : o + 128 ≤ 1024)
    (inb3 : ∀ a, (![0, o] : Fin 2 → Nat) a + S1x128.size a ≤ S1x1024.size a)
    (inb6 : ∀ a, (![0, 0, o] : Fin 3 → Nat) a + S1x32x128.size a ≤ S1x32x1024.size a)
    (x : (Rect.unit (s := S1x32x1024) ![0, 0, o] S1x32x128.size inb6).shape.Idx) :
    k0_pay1 (k0_pay2 x0 x2) (k0_pay3 x1) (View.ld x3 (Rect.unit (s := S1x1024) ![0, o] S1x128.size inb3)) (View.ld xo4 (Rect.unit (s := S1x32x1024) ![0, 0, o] S1x32x128.size inb6)) x
      = xo4 ((Rect.unit (s := S1x32x1024) ![0, 0, o] S1x32x128.size inb6).emb x)
        + tile x0 x1 x2 x3 ((Rect.unit (s := S1x32x1024) ![0, 0, o] S1x32x128.size inb6).emb x) := by
  obtain ⟨u, b, q, rfl⟩ : ∃ (u : Fin 1) (b : Fin 32) (q : Fin 128), x = ix3 u b q := ⟨x 0, x 1, x 2, eq_ix3 x⟩
  obtain rfl : u = 0 := Subsingleton.elim _ _
  have hq : o + q.val < 1024 := by have := q.isLt; omega
  have hemb : (Rect.unit (s := S1x32x1024) ![0, 0, o] S1x32x128.size inb6).emb (ix3 (0 : Fin 1) b q)
      = ix3 (0 : Fin 1) b (⟨o + q.val, hq⟩ : Fin 1024) :=
    funext fun a => Fin.ext (by
      match a with
      | ⟨0, _⟩ => show 0 + 1 * 0 = 0; rfl
      | ⟨1, _⟩ => show 0 + 1 * b.val = b.val; omega
      | ⟨2, _⟩ => show o + 1 * q.val = o + q.val; omega)
  rw [hemb]
  exact group_piece x0 x1 x2 x3 xo4 o ho inb3 inb6 b q hq

/-- A point that is not the first of its half leaves what the point before left plus the tile's contribution. -/
theorem later_point (c : Dev nD) (i : grid0.Coords) (arg2 : Memref sig .tc .vmem S5000x3 .f32) (harg2 : arg2.IsWhole) (arg3 : Memref sig .tc .vmem S5000x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x32x1024 .f32) (harg6 : arg6.IsWhole) (hc0 : ¬cond0_0 i)
    (x0 : Vec Ideal S5000x3 .f32) (x1 : Vec Ideal S5000x1 .i32) (x2 : Vec Ideal S3x32 .f32) (x3 : Vec Ideal S1x1024 .f32) (xo4 : Vec Ideal S1x32x1024 .f32) :
    out0_B_4 (F := Ideal) c i arg2 harg2 arg3 harg3 arg4 harg4 arg5 harg5 arg6 harg6 hc0 x0 x1 x2 x3 xo4
      = fun y => xo4 y + tile x0 x1 x2 x3 y := by
  unfold out0_B_4
  rw [View.read_writes_eq_canon _ _ _ (cover0_B_4 c i arg2 harg2 arg3 harg3 arg4 harg4 arg5 harg5 arg6 harg6 hc0 x0 x1 x2 x3 xo4)]
  funext y
  refine View.canon_apply_of_pieces (fun y => xo4 y + tile x0 x1 x2 x3 y) _ ?_ y (cover0_B_4 c i arg2 harg2 arg3 harg3 arg4 harg4 arg5 harg5 arg6 harg6 hc0 x0 x1 x2 x3 xo4 y)
  unfold kernelRun0_B
  dsimp only
  sl_unfold_words
  intro p hp x
  simp only [List.mem_cons, List.mem_nil_iff, or_false] at hp
  have hz2 : (![0, 0] : Fin 2 → Nat) = fun _ => 0 := by
    funext a
    match a with
    | ⟨0, _⟩ => rfl
    | ⟨1, _⟩ => rfl
  rcases hp with rfl | rfl | rfl | rfl | rfl | rfl | rfl | rfl
  · -- the group at lanes 896 … 1023
    dsimp only
    simp only [View.readAt_eq_ld, harg2.read_unread, harg3.read_unread, harg4.read_unread, harg5.read_unread, harg6.read_unread]
    rw [View.ld_unit_zero (S := S5000x3) hz2, View.ld_unit_zero (S := S3x32) hz2, View.ld_unit_zero (S := S5000x1) hz2]
    exact group_piece_emb x0 x1 x2 x3 xo4 896 (by decide) (by decide) _ _ x
  · -- the group at lanes 768 … 895
    dsimp only
    simp only [View.readAt_eq_ld, harg2.read_unread, harg3.read_unread, harg4.read_unread, harg5.read_unread, harg6.read_unread]
    rw [View.ld_unit_zero (S := S5000x3) hz2, View.ld_unit_zero (S := S3x32) hz2, View.ld_unit_zero (S := S5000x1) hz2]
    refine (congrFun (Chunk.pay14_eq _ _ _ _) x).trans ?_
    exact group_piece_emb x0 x1 x2 x3 xo4 768 (by decide) (by decide) _ _ x
  · -- the group at lanes 640 … 767
    dsimp only
    simp only [View.readAt_eq_ld, harg2.read_unread, harg3.read_unread, harg4.read_unread, harg5.read_unread, harg6.read_unread]
    rw [View.ld_unit_zero (S := S5000x3) hz2, View.ld_unit_zero (S := S3x32) hz2, View.ld_unit_zero (S := S5000x1) hz2]
    refine (congrFun (Chunk.pay13_eq _ _ _ _) x).trans ?_
    exact group_piece_emb x0 x1 x2 x3 xo4 640 (by decide) (by decide) _ _ x
  · -- the group at lanes 512 … 639
    dsimp only
    simp only [View.readAt_eq_ld, harg2.read_unread, harg3.read_unread, harg4.read_unread, harg5.read_unread, harg6.read_unread]
    rw [View.ld_unit_zero (S := S5000x3) hz2, View.ld_unit_zero (S := S3x32) hz2, View.ld_unit_zero (S := S5000x1) hz2]
    refine (congrFun (Chunk.pay11_eq _ _ _ _) x).trans ?_
    exact group_piece_emb x0 x1 x2 x3 xo4 512 (by decide) (by decide) _ _ x
  · -- the group at lanes 384 … 511
    dsimp only
    simp only [View.readAt_eq_ld, harg2.read_unread, harg3.read_unread, harg4.read_unread, harg5.read_unread, harg6.read_unread]
    rw [View.ld_unit_zero (S := S5000x3) hz2, View.ld_unit_zero (S := S3x32) hz2, View.ld_unit_zero (S := S5000x1) hz2]
    refine (congrFun (Chunk.pay10_eq _ _ _ _) x).trans ?_
    exact group_piece_emb x0 x1 x2 x3 xo4 384 (by decide) (by decide) _ _ x
  · -- the group at lanes 256 … 383
    dsimp only
    simp only [View.readAt_eq_ld, harg2.read_unread, harg3.read_unread, harg4.read_unread, harg5.read_unread, harg6.read_unread]
    rw [View.ld_unit_zero (S := S5000x3) hz2, View.ld_unit_zero (S := S3x32) hz2, View.ld_unit_zero (S := S5000x1) hz2]
    refine (congrFun (Chunk.pay8_eq _ _ _ _) x).trans ?_
    exact group_piece_emb x0 x1 x2 x3 xo4 256 (by decide) (by decide) _ _ x
  · -- the group at lanes 128 … 255
    dsimp only
    simp only [View.readAt_eq_ld, harg2.read_unread, harg3.read_unread, harg4.read_unread, harg5.read_unread, harg6.read_unread]
    rw [View.ld_unit_zero (S := S5000x3) hz2, View.ld_unit_zero (S := S3x32) hz2, View.ld_unit_zero (S := S5000x1) hz2]
    refine (congrFun (Chunk.pay7_eq _ _ _ _) x).trans ?_
    exact group_piece_emb x0 x1 x2 x3 xo4 128 (by decide) (by decide) _ _ x
  · -- the group at lanes 0 … 127
    dsimp only
    simp only [View.readAt_eq_ld, harg2.read_unread, harg3.read_unread, harg4.read_unread, harg5.read_unread, harg6.read_unread]
    rw [View.ld_unit_zero (S := S5000x3) hz2, View.ld_unit_zero (S := S3x32) hz2, View.ld_unit_zero (S := S5000x1) hz2]
    refine (congrFun (Chunk.pay6_eq _ _ _ _ _) x).trans ?_
    exact group_piece_emb x0 x1 x2 x3 xo4 0 (by decide) (by decide) _ _ x

/-! ## The first point of a half

The body first resets the whole block to zero, then runs the same eight groups; each group reloads its 128 lanes before adding
to them. Those lanes were written by the reset alone: the groups stored before it lie on other lanes. So each reload reads the
reset's zeros, and the point leaves the reset's value plus the tile's contribution. -/

theorem zeros3 : (![0, 0, 0] : Fin 3 → Nat) = fun _ => 0 := by
  funext a
  match a with
  | ⟨0, _⟩ => rfl
  | ⟨1, _⟩ => rfl
  | ⟨2, _⟩ => rfl

/-- A read of a group's lanes through the reset alone: the reset's payload on those lanes. -/
theorem read_reset (arg6 : Memref sig .tc .vmem S1x32x1024 .f32) (o : Nat)
    (inb6 : ∀ a, (![0, 0, o] : Fin 3 → Nat) a + S1x32x128.size a ≤ S1x32x1024.size a) :
    arg6.view.readCov (kernelRun0_A.sl.H4_1 (F := Ideal)) (Rect.unit (s := S1x32x1024) ![0, 0, o] S1x32x128.size inb6).toLoadRect
      = View.ld (k0_pay4 (F := Ideal)) (Rect.unit (s := S1x32x1024) ![0, 0, o] S1x32x128.size inb6) := by
  unfold kernelRun0_A.sl.H4_1
  rw [View.readCov_eq_canon', View.canon_unit_zero zeros3]

/-- A read of the 128 lanes from `o` on skips an earlier store to the 128 lanes from `o'` when those end at or before `o`,
    whatever that store wrote and whatever was stored before it. -/
theorem read_skips_group (v : View sig .tc .vmem S1x32x1024 .f32) (o' o : Nat) (h : o' + 128 ≤ o)
    (inb' : ∀ a, (![0, 0, o'] : Fin 3 → Nat) a + S1x32x128.size a ≤ S1x32x1024.size a)
    (inb : ∀ a, (![0, 0, o] : Fin 3 → Nat) a + S1x32x128.size a ≤ S1x32x1024.size a)
    (w : (Rect.unit (s := S1x32x1024) ![0, 0, o'] S1x32x128.size inb').shape.Idx → Elt Ideal .f32)
    (L : List (View.Piece (Elt Ideal) S1x32x1024 .f32)) :
    v.readCov (⟨Rect.unit (s := S1x32x1024) ![0, 0, o'] S1x32x128.size inb', w⟩ :: L) (Rect.unit (s := S1x32x1024) ![0, 0, o] S1x32x128.size inb).toLoadRect
      = v.readCov L (Rect.unit (s := S1x32x1024) ![0, 0, o] S1x32x128.size inb).toLoadRect :=
  View.readCov_cons_of_disjoint v ⟨Rect.unit (s := S1x32x1024) ![0, 0, o'] S1x32x128.size inb', w⟩ L
    (Rect.unit (s := S1x32x1024) ![0, 0, o] S1x32x128.size inb).toLoadRect
    (Rect.unit_disjoint (inb := inb') (inb' := inb) 2 (Or.inl (by show o' + 128 ≤ o; exact h)))

section Ladder
variable (c : Dev nD) (arg2 : Memref sig .tc .vmem S5000x3 .f32) (harg2 : arg2.IsWhole) (arg3 : Memref sig .tc .vmem S5000x1 .i32) (harg3 : arg3.IsWhole)
  (arg4 : Memref sig .tc .vmem S3x32 .f32) (harg4 : arg4.IsWhole) (arg5 : Memref sig .tc .vmem S1x1024 .f32) (harg5 : arg5.IsWhole)
  (arg6 : Memref sig .tc .vmem S1x32x1024 .f32)
  (x0 : Vec Ideal S5000x3 .f32) (x1 : Vec Ideal S5000x1 .i32) (x2 : Vec Ideal S3x32 .f32) (x3 : Vec Ideal S1x1024 .f32)

/-- Through the reset and the group at lanes 0 … 127, a read of lanes from 128 on sees the reset only. -/
theorem read_H4_2 (o : Nat) (ho : 128 ≤ o)
    (inb6 : ∀ a, (![0, 0, o] : Fin 3 → Nat) a + S1x32x128.size a ≤ S1x32x1024.size a) :
    arg6.view.readCov (kernelRun0_A.sl.H4_2 (F := Ideal) c arg2 harg2 arg3 harg3 arg4 harg4 arg5 harg5 arg6 x0 x1 x2 x3)
        (Rect.unit (s := S1x32x1024) ![0, 0, o] S1x32x128.size inb6).toLoadRect
      = View.ld (k0_pay4 (F := Ideal)) (Rect.unit (s := S1x32x1024) ![0, 0, o] S1x32x128.size inb6) := by
  unfold kernelRun0_A.sl.H4_2
  exact (read_skips_group arg6.view 0 o (by omega) _ inb6 _ _).trans (read_reset arg6 o inb6)

/-- Likewise through the groups at lanes 0 … 255, for a read of lanes from 256 on. -/
theorem read_H4_3 (o : Nat) (ho : 256 ≤ o)
    (inb6 : ∀ a, (![0, 0, o] : Fin 3 → Nat) a + S1x32x128.size a ≤ S1x32x1024.size a) :
    arg6.view.readCov (kernelRun0_A.sl.H4_3 (F := Ideal) c arg2 harg2 arg3 harg3 arg4 harg4 arg5 harg5 arg6 x0 x1 x2 x3)
        (Rect.unit (s := S1x32x1024) ![0, 0, o] S1x32x128.size inb6).toLoadRect
      = View.ld (k0_pay4 (F := Ideal)) (Rect.unit (s := S1x32x1024) ![0, 0, o] S1x32x128.size inb6) := by
  unfold kernelRun0_A.sl.H4_3
  exact (read_skips_group arg6.view 128 o (by omega) _ inb6 _ _).trans
    (read_H4_2 c arg2 harg2 arg3 harg3 arg4 harg4 arg5 harg5 arg6 x0 x1 x2 x3 o (by omega) inb6)

/-- Through the groups at lanes 0 … 383, for a read of lanes from 384 on. -/
theorem read_H4_4 (o : Nat) (ho : 384 ≤ o)
    (inb6 : ∀ a, (![0, 0, o] : Fin 3 → Nat) a + S1x32x128.size a ≤ S1x32x1024.size a) :
    arg6.view.readCov (kernelRun0_A.sl.H4_4 (F := Ideal) c arg2 harg2 arg3 harg3 arg4 harg4 arg5 harg5 arg6 x0 x1 x2 x3)
        (Rect.unit (s := S1x32x1024) ![0, 0, o] S1x32x128.size inb6).toLoadRect
      = View.ld (k0_pay4 (F := Ideal)) (Rect.unit (s := S1x32x1024) ![0, 0, o] S1x32x128.size inb6) := by
  unfold kernelRun0_A.sl.H4_4
  exact (read_skips_group arg6.view 256 o (by omega) _ inb6 _ _).trans
    (read_H4_3 c arg2 harg2 arg3 harg3 arg4 harg4 arg5 harg5 arg6 x0 x1 x2 x3 o (by omega) inb6)

/-- Through the groups at lanes 0 … 511, for a read of lanes from 512 on. -/
theorem read_H4_5 (o : Nat) (ho : 512 ≤ o)
    (inb6 : ∀ a, (![0, 0, o] : Fin 3 → Nat) a + S1x32x128.size a ≤ S1x32x1024.size a) :
    arg6.view.readCov (kernelRun0_A.sl.H4_5 (F := Ideal) c arg2 harg2 arg3 harg3 arg4 harg4 arg5 harg5 arg6 x0 x1 x2 x3)
        (Rect.unit (s := S1x32x1024) ![0, 0, o] S1x32x128.size inb6).toLoadRect
      = View.ld (k0_pay4 (F := Ideal)) (Rect.unit (s := S1x32x1024) ![0, 0, o] S1x32x128.size inb6) := by
  unfold kernelRun0_A.sl.H4_5
  exact (read_skips_group arg6.view 384 o (by omega) _ inb6 _ _).trans
    (read_H4_4 c arg2 harg2 arg3 harg3 arg4 harg4 arg5 harg5 arg6 x0 x1 x2 x3 o (by omega) inb6)

/-- Through the groups at lanes 0 … 639, for a read of lanes from 640 on. -/
theorem read_H4_6 (o : Nat) (ho : 640 ≤ o)
    (inb6 : ∀ a, (![0, 0, o] : Fin 3 → Nat) a + S1x32x128.size a ≤ S1x32x1024.size a) :
    arg6.view.readCov (kernelRun0_A.sl.H4_6 (F := Ideal) c arg2 harg2 arg3 harg3 arg4 harg4 arg5 harg5 arg6 x0 x1 x2 x3)
        (Rect.unit (s := S1x32x1024) ![0, 0, o] S1x32x128.size inb6).toLoadRect
      = View.ld (k0_pay4 (F := Ideal)) (Rect.unit (s := S1x32x1024) ![0, 0, o] S1x32x128.size inb6) := by
  unfold kernelRun0_A.sl.H4_6
  exact (read_skips_group arg6.view 512 o (by omega) _ inb6 _ _).trans
    (read_H4_5 c arg2 harg2 arg3 harg3 arg4 harg4 arg5 harg5 arg6 x0 x1 x2 x3 o (by omega) inb6)

/-- Through the groups at lanes 0 … 767, for a read of lanes from 768 on. -/
theorem read_H4_7 (o : Nat) (ho : 768 ≤ o)
    (inb6 : ∀ a, (![0, 0, o] : Fin 3 → Nat) a + S1x32x128.size a ≤ S1x32x1024.size a) :
    arg6.view.readCov (kernelRun0_A.sl.H4_7 (F := Ideal) c arg2 harg2 arg3 harg3 arg4 harg4 arg5 harg5 arg6 x0 x1 x2 x3)
        (Rect.unit (s := S1x32x1024) ![0, 0, o] S1x32x128.size inb6).toLoadRect
      = View.ld (k0_pay4 (F := Ideal)) (Rect.unit (s := S1x32x1024) ![0, 0, o] S1x32x128.size inb6) := by
  unfold kernelRun0_A.sl.H4_7
  exact (read_skips_group arg6.view 640 o (by omega) _ inb6 _ _).trans
    (read_H4_6 c arg2 harg2 arg3 harg3 arg4 harg4 arg5 harg5 arg6 x0 x1 x2 x3 o (by omega) inb6)

/-- Through the groups at lanes 0 … 895, for a read of lanes from 896 on. -/
theorem read_H4_8 (o : Nat) (ho : 896 ≤ o)
    (inb6 : ∀ a, (![0, 0, o] : Fin 3 → Nat) a + S1x32x128.size a ≤ S1x32x1024.size a) :
    arg6.view.readCov (kernelRun0_A.sl.H4_8 (F := Ideal) c arg2 harg2 arg3 harg3 arg4 harg4 arg5 harg5 arg6 x0 x1 x2 x3)
        (Rect.unit (s := S1x32x1024) ![0, 0, o] S1x32x128.size inb6).toLoadRect
      = View.ld (k0_pay4 (F := Ideal)) (Rect.unit (s := S1x32x1024) ![0, 0, o] S1x32x128.size inb6) := by
  unfold kernelRun0_A.sl.H4_8
  exact (read_skips_group arg6.view 768 o (by omega) _ inb6 _ _).trans
    (read_H4_7 c arg2 harg2 arg3 harg3 arg4 harg4 arg5 harg5 arg6 x0 x1 x2 x3 o (by omega) inb6)

/-! Each group's reload, then, is the reset's payload on the group's own lanes. -/

theorem reload_0 : kernelRun0_A.sl.v49 (F := Ideal) c arg6
    = View.ld (k0_pay4 (F := Ideal)) (Rect.unit (s := S1x32x1024) ![0, 0, 0] S1x32x128.size inb_S1x32x1024_S1x32x128_0_0_0) := by
  unfold kernelRun0_A.sl.v49
  exact read_reset arg6 0 _
theorem reload_128 : kernelRun0_A.sl.v71 (F := Ideal) c arg2 harg2 arg3 harg3 arg4 harg4 arg5 harg5 arg6 x0 x1 x2 x3
    = View.ld (k0_pay4 (F := Ideal)) (Rect.unit (s := S1x32x1024) ![0, 0, 128] S1x32x128.size inb_S1x32x1024_S1x32x128_0_0_128) := by
  unfold kernelRun0_A.sl.v71
  exact read_H4_2 c arg2 harg2 arg3 harg3 arg4 harg4 arg5 harg5 arg6 x0 x1 x2 x3 128 (by omega) _
theorem reload_256 : kernelRun0_A.sl.v93 (F := Ideal) c arg2 harg2 arg3 harg3 arg4 harg4 arg5 harg5 arg6 x0 x1 x2 x3
    = View.ld (k0_pay4 (F := Ideal)) (Rect.unit (s := S1x32x1024) ![0, 0, 256] S1x32x128.size inb_S1x32x1024_S1x32x128_0_0_256) := by
  unfold kernelRun0_A.sl.v93
  exact read_H4_3 c arg2 harg2 arg3 harg3 arg4 harg4 arg5 harg5 arg6 x0 x1 x2 x3 256 (by omega) _
theorem reload_384 : kernelRun0_A.sl.v115 (F := Ideal) c arg2 harg2 arg3 harg3 arg4 harg4 arg5 harg5 arg6 x0 x1 x2 x3
    = View.ld (k0_pay4 (F := Ideal)) (Rect.unit (s := S1x32x1024) ![0, 0, 384] S1x32x128.size inb_S1x32x1024_S1x32x128_0_0_384) := by
  unfold kernelRun0_A.sl.v115
  exact read_H4_4 c arg2 harg2 arg3 harg3 arg4 harg4 arg5 harg5 arg6 x0 x1 x2 x3 384 (by omega) _
theorem reload_512 : kernelRun0_A.sl.v137 (F := Ideal) c arg2 harg2 arg3 harg3 arg4 harg4 arg5 harg5 arg6 x0 x1 x2 x3
    = View.ld (k0_pay4 (F := Ideal)) (Rect.unit (s := S1x32x1024) ![0, 0, 512] S1x32x128.size inb_S1x32x1024_S1x32x128_0_0_512) := by
  unfold kernelRun0_A.sl.v137
  exact read_H4_5 c arg2 harg2 arg3 harg3 arg4 harg4 arg5 harg5 arg6 x0 x1 x2 x3 512 (by omega) _
theorem reload_640 : kernelRun0_A.sl.v159 (F := Ideal) c arg2 harg2 arg3 harg3 arg4 harg4 arg5 harg5 arg6 x0 x1 x2 x3
    = View.ld (k0_pay4 (F := Ideal)) (Rect.unit (s := S1x32x1024) ![0, 0, 640] S1x32x128.size inb_S1x32x1024_S1x32x128_0_0_640) := by
  unfold kernelRun0_A.sl.v159
  exact read_H4_6 c arg2 harg2 arg3 harg3 arg4 harg4 arg5 harg5 arg6 x0 x1 x2 x3 640 (by omega) _
theorem reload_768 : kernelRun0_A.sl.v181 (F := Ideal) c arg2 harg2 arg3 harg3 arg4 harg4 arg5 harg5 arg6 x0 x1 x2 x3
    = View.ld (k0_pay4 (F := Ideal)) (Rect.unit (s := S1x32x1024) ![0, 0, 768] S1x32x128.size inb_S1x32x1024_S1x32x128_0_0_768) := by
  unfold kernelRun0_A.sl.v181
  exact read_H4_7 c arg2 harg2 arg3 harg3 arg4 harg4 arg5 harg5 arg6 x0 x1 x2 x3 768 (by omega) _
theorem reload_896 : kernelRun0_A.sl.v203 (F := Ideal) c arg2 harg2 arg3 harg3 arg4 harg4 arg5 harg5 arg6 x0 x1 x2 x3
    = View.ld (k0_pay4 (F := Ideal)) (Rect.unit (s := S1x32x1024) ![0, 0, 896] S1x32x128.size inb_S1x32x1024_S1x32x128_0_0_896) := by
  unfold kernelRun0_A.sl.v203
  exact read_H4_8 c arg2 harg2 arg3 harg3 arg4 harg4 arg5 harg5 arg6 x0 x1 x2 x3 896 (by omega) _

end Ladder

/-- Eight stores that are blocks of one function `G`, made after any earlier stores: where one of the eight covers, the
    contents are `G`. -/
theorem canon_eight_then (G : S1x32x1024.Idx → Elt Ideal .f32) (p1 p2 p3 p4 p5 p6 p7 p8 : View.Piece (Elt Ideal) S1x32x1024 .f32)
    (L' : List (View.Piece (Elt Ideal) S1x32x1024 .f32))
    (h : ∀ p ∈ [p1, p2, p3, p4, p5, p6, p7, p8], ∀ x : p.1.shape.Idx, p.2 x = G (p.1.emb x)) (y : S1x32x1024.Idx)
    (hy : ∃ p ∈ [p1, p2, p3, p4, p5, p6, p7, p8], y ∈ p.1.set) :
    View.canon (p1 :: p2 :: p3 :: p4 :: p5 :: p6 :: p7 :: p8 :: L') y = G y :=
  View.canon_append_of_pieces G L' [p1, p2, p3, p4, p5, p6, p7, p8] h y hy

/-- The first point of a half leaves the reset's value plus the tile's contribution. -/
theorem first_point (c : Dev nD) (i : grid0.Coords) (arg2 : Memref sig .tc .vmem S5000x3 .f32) (harg2 : arg2.IsWhole) (arg3 : Memref sig .tc .vmem S5000x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x32x1024 .f32) (harg6 : arg6.IsWhole) (hc0 : cond0_0 i)
    (x0 : Vec Ideal S5000x3 .f32) (x1 : Vec Ideal S5000x1 .i32) (x2 : Vec Ideal S3x32 .f32) (x3 : Vec Ideal S1x1024 .f32) :
    out0_A_4 (F := Ideal) c i arg2 harg2 arg3 harg3 arg4 harg4 arg5 harg5 arg6 harg6 hc0 x0 x1 x2 x3
      = fun y => k0_pay4 (F := Ideal) y + tile x0 x1 x2 x3 y := by
  unfold out0_A_4
  rw [View.read_writes_eq_canon _ _ _ (cover0_A_4 c i arg2 harg2 arg3 harg3 arg4 harg4 arg5 harg5 arg6 harg6 hc0 x0 x1 x2 x3)]
  funext y
  unfold kernelRun0_A
  dsimp only
  unfold kernelRun0_A.sl.H4_8 kernelRun0_A.sl.H4_7 kernelRun0_A.sl.H4_6 kernelRun0_A.sl.H4_5 kernelRun0_A.sl.H4_4 kernelRun0_A.sl.H4_3 kernelRun0_A.sl.H4_2
  rw [reload_896 c arg2 harg2 arg3 harg3 arg4 harg4 arg5 harg5 arg6 x0 x1 x2 x3, reload_768 c arg2 harg2 arg3 harg3 arg4 harg4 arg5 harg5 arg6 x0 x1 x2 x3, reload_640 c arg2 harg2 arg3 harg3 arg4 harg4 arg5 harg5 arg6 x0 x1 x2 x3, reload_512 c arg2 harg2 arg3 harg3 arg4 harg4 arg5 harg5 arg6 x0 x1 x2 x3, reload_384 c arg2 harg2 arg3 harg3 arg4 harg4 arg5 harg5 arg6 x0 x1 x2 x3, reload_256 c arg2 harg2 arg3 harg3 arg4 harg4 arg5 harg5 arg6 x0 x1 x2 x3, reload_128 c arg2 harg2 arg3 harg3 arg4 harg4 arg5 harg5 arg6 x0 x1 x2 x3, reload_0 c arg6]
  -- eight groups, each a block of the reset's value plus the tile's contribution, stored over the reset
  refine canon_eight_then (fun y => k0_pay4 (F := Ideal) y + tile x0 x1 x2 x3 y) _ _ _ _ _ _ _ _ _ ?_ y ?_
  · sl_unfold_words
    intro p hp x
    simp only [List.mem_cons, List.mem_nil_iff, or_false] at hp
    have hz2 : (![0, 0] : Fin 2 → Nat) = fun _ => 0 := by
      funext a
      match a with
      | ⟨0, _⟩ => rfl
      | ⟨1, _⟩ => rfl
    rcases hp with rfl | rfl | rfl | rfl | rfl | rfl | rfl | rfl
    · -- the group at lanes 896 … 1023
      dsimp only
      simp only [View.readAt_eq_ld, harg2.read_unread, harg3.read_unread, harg4.read_unread, harg5.read_unread]
      rw [View.ld_unit_zero (S := S5000x3) hz2, View.ld_unit_zero (S := S3x32) hz2, View.ld_unit_zero (S := S5000x1) hz2]
      exact group_piece_emb x0 x1 x2 x3 (k0_pay4 (F := Ideal)) 896 (by decide) (by decide) _ _ x
    · -- the group at lanes 768 … 895
      dsimp only
      simp only [View.readAt_eq_ld, harg2.read_unread, harg3.read_unread, harg4.read_unread, harg5.read_unread]
      rw [View.ld_unit_zero (S := S5000x3) hz2, View.ld_unit_zero (S := S3x32) hz2, View.ld_unit_zero (S := S5000x1) hz2]
      refine (congrFun (Chunk.pay14_eq _ _ _ _) x).trans ?_
      exact group_piece_emb x0 x1 x2 x3 (k0_pay4 (F := Ideal)) 768 (by decide) (by decide) _ _ x
    · -- the group at lanes 640 … 767
      dsimp only
      simp only [View.readAt_eq_ld, harg2.read_unread, harg3.read_unread, harg4.read_unread, harg5.read_unread]
      rw [View.ld_unit_zero (S := S5000x3) hz2, View.ld_unit_zero (S := S3x32) hz2, View.ld_unit_zero (S := S5000x1) hz2]
      refine (congrFun (Chunk.pay13_eq _ _ _ _) x).trans ?_
      exact group_piece_emb x0 x1 x2 x3 (k0_pay4 (F := Ideal)) 640 (by decide) (by decide) _ _ x
    · -- the group at lanes 512 … 639
      dsimp only
      simp only [View.readAt_eq_ld, harg2.read_unread, harg3.read_unread, harg4.read_unread, harg5.read_unread]
      rw [View.ld_unit_zero (S := S5000x3) hz2, View.ld_unit_zero (S := S3x32) hz2, View.ld_unit_zero (S := S5000x1) hz2]
      refine (congrFun (Chunk.pay11_eq _ _ _ _) x).trans ?_
      exact group_piece_emb x0 x1 x2 x3 (k0_pay4 (F := Ideal)) 512 (by decide) (by decide) _ _ x
    · -- the group at lanes 384 … 511
      dsimp only
      simp only [View.readAt_eq_ld, harg2.read_unread, harg3.read_unread, harg4.read_unread, harg5.read_unread]
      rw [View.ld_unit_zero (S := S5000x3) hz2, View.ld_unit_zero (S := S3x32) hz2, View.ld_unit_zero (S := S5000x1) hz2]
      refine (congrFun (Chunk.pay10_eq _ _ _ _) x).trans ?_
      exact group_piece_emb x0 x1 x2 x3 (k0_pay4 (F := Ideal)) 384 (by decide) (by decide) _ _ x
    · -- the group at lanes 256 … 383
      dsimp only
      simp only [View.readAt_eq_ld, harg2.read_unread, harg3.read_unread, harg4.read_unread, harg5.read_unread]
      rw [View.ld_unit_zero (S := S5000x3) hz2, View.ld_unit_zero (S := S3x32) hz2, View.ld_unit_zero (S := S5000x1) hz2]
      refine (congrFun (Chunk.pay8_eq _ _ _ _) x).trans ?_
      exact group_piece_emb x0 x1 x2 x3 (k0_pay4 (F := Ideal)) 256 (by decide) (by decide) _ _ x
    · -- the group at lanes 128 … 255
      dsimp only
      simp only [View.readAt_eq_ld, harg2.read_unread, harg3.read_unread, harg4.read_unread, harg5.read_unread]
      rw [View.ld_unit_zero (S := S5000x3) hz2, View.ld_unit_zero (S := S3x32) hz2, View.ld_unit_zero (S := S5000x1) hz2]
      refine (congrFun (Chunk.pay7_eq _ _ _ _) x).trans ?_
      exact group_piece_emb x0 x1 x2 x3 (k0_pay4 (F := Ideal)) 128 (by decide) (by decide) _ _ x
    · -- the group at lanes 0 … 127
      dsimp only
      simp only [View.readAt_eq_ld, harg2.read_unread, harg3.read_unread, harg4.read_unread, harg5.read_unread]
      rw [View.ld_unit_zero (S := S5000x3) hz2, View.ld_unit_zero (S := S3x32) hz2, View.ld_unit_zero (S := S5000x1) hz2]
      refine (congrFun (Chunk.pay6_eq _ _ _ _ _) x).trans ?_
      exact group_piece_emb x0 x1 x2 x3 (k0_pay4 (F := Ideal)) 0 (by decide) (by decide) _ _ x
  · -- the eight groups of 128 lanes tile the block
    exact View.cover_of_tiledL (s := S1x32x1024) _ S1x32x128.size (by sl_kernel_rfl) y

end Cert.KernelIdeal.Point

end
-- ==== Proof.Accum.lean ====
/-
  The accumulation over a half of the points.

  The grid has twenty points, ten to each half of the point cloud; the output block of a half is carried from point to point.
  At the first point of a half (n a multiple of ten) the block is reset and receives that tile's contribution; at every other
  point it receives the tile's contribution on top of what the point before left. So after point n the block holds the sum of
  the contributions of the points of n's half up to n — the reset's zeros and the matrix unit's zero accumulator vanish in the
  commutative monoid of the extended reals.
-/
import proofs.«426852_j18545668784265_3_alg».proof.Proof.Point

set_option maxRecDepth 16384

noncomputable section

namespace Cert.KernelIdeal.Accum

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The four input blocks of a grid point, each at its literal type: the tile's points, their segment words, the directions, and the
    filtration levels laid along the lanes. -/
abbrev xblk (c : Dev nD) (t : Fin cfg0.N) : Vec Ideal S5000x3 .f32 := iblk m c 0 t
abbrev sblk (c : Dev nD) (t : Fin cfg0.N) : Vec Ideal S5000x1 .i32 := iblk m c 1 t
abbrev vblk (c : Dev nD) (t : Fin cfg0.N) : Vec Ideal S3x32 .f32 := iblk m c 2 t
abbrev lblk (c : Dev nD) (t : Fin cfg0.N) : Vec Ideal S1x1024 .f32 := iblk m c 3 t

/-- The contribution of grid point `s` to the block (nothing beyond the grid). -/
def contrib (c : Dev nD) (s : ℕ) : S1x32x1024.Idx → EReal := fun y =>
  if h : s < cfg0.N then Point.tile (xblk m c ⟨s, h⟩) (sblk m c ⟨s, h⟩) (vblk m c ⟨s, h⟩) (lblk m c ⟨s, h⟩) y else 0

theorem contrib_of_lt (c : Dev nD) (t : Fin cfg0.N) (y : S1x32x1024.Idx) :
    contrib m c t.val y = Point.tile (xblk m c t) (sblk m c t) (vblk m c t) (lblk m c t) y := by
  unfold contrib
  rw [dif_pos t.isLt]

/-- The reset writes zero everywhere. -/
theorem reset_zero (y : S1x32x1024.Idx) : k0_pay4 (F := Ideal) y = 0 := by
  show Ideal.ofBits .f32 0x00000000#32 = 0
  exact Ideal.ofBits_zero_f32

/-- What a point leaves, in terms of the point before. -/
theorem outsAt0_step (c : Dev nD) (t : Fin cfg0.N) (y : S1x32x1024.Idx) :
    outsAt0 (F := Ideal) m c t.val t.isLt y
      = (if t.val % 10 = 0 then 0 else outsAt0 (F := Ideal) m c (t.val - 1) (Nat.lt_of_le_of_lt (Nat.sub_le _ _) t.isLt) y)
        + contrib m c t.val y := by
  by_cases h0 : t.val % 10 = 0
  · -- the first point of a half: the reset's zeros, then the tile's contribution
    rw [if_pos h0, outsAt0_A m c t h0]
    refine (congrFun (Point.first_point c (grid0.coords t) (ms0_0 t) (hs0_0 t) (ms0_1 t) (hs0_1 t) (ms0_2 t) (hs0_2 t) (ms0_3 t) (hs0_3 t) (ms0_4 t) (hs0_4 t) ((hcond0_0 t).mpr h0) (xblk m c t) (sblk m c t) (vblk m c t) (lblk m c t)) y).trans ?_
    rw [reset_zero, contrib_of_lt]
  · -- a later point: what the point before left, then the tile's contribution
    rw [if_neg h0, outsAt0_B m c t h0]
    refine (congrFun (Point.later_point c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (xblk m c t) (sblk m c t) (vblk m c t) (lblk m c t)
      (outsAt0 (F := Ideal) m c (t.val - 1) (Nat.lt_of_le_of_lt (Nat.sub_le _ _) t.isLt))) y).trans ?_
    rw [contrib_of_lt]

/-- After point `n` the block holds the sum of the contributions of the points of `n`'s half up to `n`. -/
theorem outsAt0_sum (c : Dev nD) : ∀ (n : ℕ) (hn : n < cfg0.N) (y : S1x32x1024.Idx),
    outsAt0 (F := Ideal) m c n hn y = ∑ s ∈ Finset.Icc (n - n % 10) n, contrib m c s y
  | 0, hn, y => by
    have h := outsAt0_step m c ⟨0, hn⟩ y
    rw [if_pos (by rfl : (0 : ℕ) % 10 = 0), zero_add] at h
    rw [h]
    simp
  | n + 1, hn, y => by
    have h := outsAt0_step m c ⟨n + 1, hn⟩ y
    by_cases h0 : (n + 1) % 10 = 0
    · -- a new half starts: the sum is the one term
      rw [if_pos h0, zero_add] at h
      rw [h, h0, Nat.sub_zero, Finset.Icc_self, Finset.sum_singleton]
    · -- the half goes on: the sum so far, and one more term
      rw [if_neg h0] at h
      have ih := outsAt0_sum c n (Nat.lt_of_succ_lt hn) y
      have hlo : (n + 1) - (n + 1) % 10 = n - n % 10 := by omega
      have hle : n - n % 10 ≤ n + 1 := by omega
      rw [h, hlo, Finset.sum_Icc_succ_top hle]
      exact congrArg (· + contrib m c (n + 1) y) ih

end Cert.KernelIdeal.Accum

end
-- ==== Proof.Array.lean ====
/-
  From the carried block to the kernel's partial sums.

  The region's output array has two halves, one per half of the point cloud; the carried block of a half is written back once,
  after the half's last point. So half p of the array ends holding, at segment b and lane c, the sum over the ten points of
  that half of the tiles' contributions there.
-/
import proofs.«426852_j18545668784265_3_alg».proof.Proof.Accum

set_option maxRecDepth 16384

noncomputable section

namespace Cert.KernelIdeal.Partial

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Half `p` of the partial sums at segment `b` and lane `l`: the ten points of the half, summed. -/
def halfSum (c : Dev nD) (p : Fin 2) (b : Fin 32) (l : Fin 1024) : EReal :=
  ∑ s ∈ Finset.Icc (10 * p.val) (10 * p.val + 9), Accum.contrib m c s (ix3 (0 : Fin 1) b l)

/-- The partial sums as contents of the region's output array. -/
def partials (c : Dev nD) : Buf (Elt Ideal) ((c : Thread nD τ).loc main_v4) := fun i =>
  halfSum m c ⟨(i 0).val, (i 0).isLt⟩ ⟨(i 1).val, (i 1).isLt⟩ ⟨(i 2).val, (i 2).isLt⟩

/-- A write-back writes its half of the partial sums. -/
theorem flushed_eq (c : Dev nD) (t : Fin cfg0.N) (hf : (cfg0.win 4).flush t = true) :
    (dats (F := Ideal) m 0 c).flushed 4 t = ((cfg0.win 4).blk t).view.read (Elt Ideal) (partials m c) := by
  have hN : cfg0.N = 20 := N_0
  have h9 : t.val % 10 = 9 := (flush0_4 t).mp hf
  -- the output window's block index at point t is (t / 10, 0, 0), and its blocks are whole: 1 by 32 by 1024
  have hidx : win0_4.index t 0 = t.val / 10 ∧ win0_4.index t 1 = 0 ∧ win0_4.index t 2 = 0 :=
    (by decide +kernel : ∀ t : Fin grid0.N, win0_4.index t 0 = t.val / 10 ∧ win0_4.index t 1 = 0 ∧ win0_4.index t 2 = 0) t
  have hsz : win0_4.xsize (grid0.coords t) 0 = 1 ∧ win0_4.xsize (grid0.coords t) 1 = 32 ∧ win0_4.xsize (grid0.coords t) 2 = 1024 :=
    (by decide +kernel : ∀ t : Fin grid0.N, win0_4.xsize (grid0.coords t) 0 = 1 ∧ win0_4.xsize (grid0.coords t) 1 = 32 ∧ win0_4.xsize (grid0.coords t) 2 = 1024) t
  show (cfg0.win 4).cut (grid0.coords t) ((dats (F := Ideal) m 0 c).after 4 t) = _
  rw [after0_4]
  funext y
  rw [View.read_apply]
  show outsAt0 (F := Ideal) m c t.val t.isLt ((cfg0.win 4).xinj (grid0.coords t) y) = partials m c (((cfg0.win 4).blk t).view.emb y)
  rw [Accum.outsAt0_sum]
  unfold partials halfSum
  -- the local index has first coordinate 0; the block places it at half t / 10, same segment, same lane
  have hy0 : (y 0).val = 0 := by
    have h : (y 0).val < win0_4.xsize (grid0.coords t) 0 := (y 0).isLt
    rw [hsz.1] at h; omega
  have e0 : (((cfg0.win 4).blk t).view.emb y 0).val = t.val / 10 := by
    show win0_4.index t 0 * 1 + 1 * (y 0).val = t.val / 10
    rw [hidx.1, hy0]; omega
  have e1 : (((cfg0.win 4).blk t).view.emb y 1).val = (y 1).val := by
    show win0_4.index t 1 * 32 + 1 * (y 1).val = (y 1).val
    rw [hidx.2.1]; omega
  have e2 : (((cfg0.win 4).blk t).view.emb y 2).val = (y 2).val := by
    show win0_4.index t 2 * 1024 + 1 * (y 2).val = (y 2).val
    rw [hidx.2.2]; omega
  refine Finset.sum_congr ?_ (fun s _ => congrArg (Accum.contrib m c s) ?_)
  · -- the points of t's half up to t are all ten of them, t being the half's last point
    show Finset.Icc (t.val - t.val % 10) t.val
      = Finset.Icc (10 * (((cfg0.win 4).blk t).view.emb y 0).val) (10 * (((cfg0.win 4).blk t).view.emb y 0).val + 9)
    rw [e0]
    congr 1 <;> omega
  · funext a
    apply Fin.ext
    match a with
    | ⟨0, _⟩ => exact hy0
    | ⟨1, _⟩ => exact e1.symm
    | ⟨2, _⟩ => exact e2.symm

/-- So the region's output array ends holding the partial sums: half p is covered by the write-back after point 10 p + 9. -/
theorem final (c : Dev nD) : (dats (F := Ideal) m 0 c).arrAt 4 cfg0.N = partials m c :=
  (dats (F := Ideal) m 0 c).arrAt_eq_of_cover 4 (partials m c) (flushed_eq m c) fun i => by
    have hN : cfg0.N = 20 := N_0
    have hi0 : (i 0 : Nat) < 2 := (i 0).isLt
    have hi1 : (i 1 : Nat) < 32 := (i 1).isLt
    have hi2 : (i 2 : Nat) < 1024 := (i 2).isLt
    have ht : 10 * (i 0 : Nat) + 9 < cfg0.N := by rw [hN]; omega
    refine ⟨⟨10 * (i 0 : Nat) + 9, ht⟩, (flush0_4 _).mpr (by show (10 * (i 0 : Nat) + 9) % 10 = 9; omega), ?_⟩
    have hidx := (by decide +kernel : ∀ t : Fin grid0.N, win0_4.index t 0 = t.val / 10 ∧ win0_4.index t 1 = 0 ∧ win0_4.index t 2 = 0) ⟨10 * (i 0 : Nat) + 9, ht⟩
    have hsz := (by decide +kernel : ∀ t : Fin grid0.N, win0_4.xsize (grid0.coords t) 0 = 1 ∧ win0_4.xsize (grid0.coords t) 1 = 32 ∧ win0_4.xsize (grid0.coords t) 2 = 1024) ⟨10 * (i 0 : Nat) + 9, ht⟩
    show i ∈ ((View.whole main_v4).slice (win0_4.rect ⟨10 * (i 0 : Nat) + 9, ht⟩)).set
    rw [View.set_slice_whole, Rect.mem_set_unit]
    intro a
    match a with
    | ⟨0, _⟩ =>
      show win0_4.index ⟨10 * (i 0 : Nat) + 9, ht⟩ 0 * 1 ≤ (i 0 : Nat) ∧ (i 0 : Nat) < win0_4.index ⟨10 * (i 0 : Nat) + 9, ht⟩ 0 * 1 + win0_4.xsize (grid0.coords ⟨10 * (i 0 : Nat) + 9, ht⟩) 0
      rw [hidx.1, hsz.1]
      show (10 * (i 0 : Nat) + 9) / 10 * 1 ≤ (i 0 : Nat) ∧ (i 0 : Nat) < (10 * (i 0 : Nat) + 9) / 10 * 1 + 1
      omega
    | ⟨1, _⟩ =>
      show win0_4.index ⟨10 * (i 0 : Nat) + 9, ht⟩ 1 * 32 ≤ (i 1 : Nat) ∧ (i 1 : Nat) < win0_4.index ⟨10 * (i 0 : Nat) + 9, ht⟩ 1 * 32 + win0_4.xsize (grid0.coords ⟨10 * (i 0 : Nat) + 9, ht⟩) 1
      rw [hidx.2.1, hsz.2.1]; omega
    | ⟨2, _⟩ =>
      show win0_4.index ⟨10 * (i 0 : Nat) + 9, ht⟩ 2 * 1024 ≤ (i 2 : Nat) ∧ (i 2 : Nat) < win0_4.index ⟨10 * (i 0 : Nat) + 9, ht⟩ 2 * 1024 + win0_4.xsize (grid0.coords ⟨10 * (i 0 : Nat) + 9, ht⟩) 2
      rw [hidx.2.2, hsz.2.2]; omega

end Cert.KernelIdeal.Partial

end
-- ==== Proof.Tail.lean ====
/-
  The host operations after the region.

  The two halves of the partial sums are cut out of the region's output array, each read as 32 segments by 1024 lanes, and added;
  the sum is read as 32 segments by 32 filtration levels by 32 directions (lane 32 r + t is level r, direction t). Then every
  segment's values are divided by the segment's maximum over levels and directions. That last step is the same in the reference
  program, so it is carried here as one function of the unnormalised values and never opened.
-/
import proofs.«426852_j18545668784265_3_alg».proof.Proof.Array
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- Every segment's values divided by the segment's maximum over levels and directions. -/
def normalise (e : (⟨S32x32x32, .f32⟩ : BufTy).Contents (Elt Ideal)) : (⟨S32x32x32, .f32⟩ : BufTy).Contents (Elt Ideal) :=
  Host.divf e
    (broadcastInDim S32x32x32 ![0, 1, 2] bcast_S32x1x1_S32x32x32_0_1_2
      (broadcastInDim S32x1x1 ![0] bcast_S32_S32x1x1_0
        (Host.reduce FloatOps.maximumf e (constant (F := Ideal) S_ .f32 0xFF800000#32) reducesTo_S32x32x32_S32_d1_2 h_S_)))

/-- The two halves added and read by segment, level and direction, as a function of the region's output array. -/
def combine (P : (⟨S2x32x1024, .f32⟩ : BufTy).Contents (Elt Ideal)) : (⟨S32x32x32, .f32⟩ : BufTy).Contents (Elt Ideal) :=
  shapeCast S32x32x32
    (addf (F := Ideal) (φ := .f32)
      (shapeCast S32x1024 (extractStridedSlice S1x32x1024 ![0, 0, 0] P slices_S2x32x1024_S1x32x1024_0_0_0 : FVec Ideal S1x32x1024 .f32) shapeCasts_S1x32x1024_S32x1024)
      (shapeCast S32x1024 (extractStridedSlice S1x32x1024 ![1, 0, 0] P slices_S2x32x1024_S1x32x1024_1_0_0 : FVec Ideal S1x32x1024 .f32) shapeCasts_S1x32x1024_S32x1024))
    shapeCasts_S32x1024_S32x32x32

/-- The kernel program's result: the normalised combination of the partial sums. -/
theorem result_eq (c : Dev nD) :
    Pipeline.afterTail₀ cfgs (dats (F := Ideal) m) 0 (V0 m) [hostOps1] c main_v14 = normalise (combine (Partial.partials m c)) := by
  unfold Pipeline.afterTail₀
  show StableHlo.after hostOps1 _ (Proc.devRef .tc main_v14) = _
  after_results
  -- the region's output array, as the tail finds it, holds the partial sums
  have hW : Pipeline.withArrays (cfgs 0).spec c (V0 m c) (fun w => (dats (F := Ideal) m 0 c).arrAt w (cfgs 0).N) (Proc.tc.devRef main_v4)
      = Partial.partials m c :=
    (Pipeline.withArrays_arr spec0 launch0.win.arr_inj c _ _ 4).trans (Partial.final m c)
  rw [hW]
  rfl

/-- The kernel program's run, read: every weakly fair execution terminates with the result at the normalised combination of
    the partial sums and the four arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v14) = normalise (combine (Partial.partials m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v14 (Pipeline.mem_restRefs_of main_v14 (by decide) (by decide))).trans (result_eq m c),
      ((h c).1 0).trans (((dats (F := Ideal) m 0 c).arrAt_in 0 rfl _).trans ((A_eq m c 0).trans (V_main_arg0 m c))),
      ((h c).1 2).trans (((dats (F := Ideal) m 0 c).arrAt_in 2 rfl _).trans ((A_eq m c 2).trans (V_main_arg1 m c))),
      ((h c).2 main_arg2 (Pipeline.mem_restRefs_of main_arg2 (by decide) (by decide))).trans (W_main_arg2 m (dats (F := Ideal) m) c),
      ((h c).2 main_arg3 (Pipeline.mem_restRefs_of main_arg3 (by decide) (by decide))).trans (W_main_arg3 m (dats (F := Ideal) m) c)⟩)
    (run_main m ρ)

end Cert.KernelIdeal.Result

end
-- ==== Proof.Blocks.lean ====
/-
  The tile's four blocks in terms of the program's arguments.

  Grid point s works on the 5000 points from 5000 s on: its point block is rows 5000 s … 5000 s + 4999 of x, its segment column the
  words of the same rows of index (which the host laid out as a column), its direction block all of v, and its lin row the 32
  filtration levels laid along 1024 lanes by the host, lane c carrying level c / 32.
-/
import proofs.«426852_j18545668784265_3_alg».proof.Proof.Accum
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The point block of grid point `s` at row `k`, coordinate `d`: x at row 5000 s + k. -/
theorem xblk_apply (c : Dev nD) (s : Fin cfg0.N) (k : Fin 5000) (d : Fin 3) (hk : 5000 * s.val + k.val < 100000) :
    Accum.xblk m c s (ix2 k d) = m ((c : Thread nD τ).loc main_arg0) (ix2 (⟨5000 * s.val + k.val, hk⟩ : Fin 100000) d) := by
  have hidx : win0_0.index s 0 = s.val ∧ win0_0.index s 1 = 0 :=
    (by decide +kernel : ∀ t : Fin grid0.N, win0_0.index t 0 = t.val ∧ win0_0.index t 1 = 0) s
  show iblk m c 0 s (ix2 k d) = _
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ => show win0_0.index s 0 * 5000 + 1 * k.val = 5000 * s.val + k.val; rw [hidx.1]; omega
  | ⟨1, _⟩ => show win0_0.index s 1 * 3 + 1 * d.val = d.val; rw [hidx.2]; omega

/-- The direction block of every grid point is all of v. -/
theorem vblk_eq (c : Dev nD) (s : Fin cfg0.N) : Accum.vblk m c s = m ((c : Thread nD τ).loc main_arg1) := by
  have hidx : win0_2.index s 0 = 0 ∧ win0_2.index s 1 = 0 :=
    (by decide +kernel : ∀ t : Fin grid0.N, win0_2.index t 0 = 0 ∧ win0_2.index t 1 = 0) s
  funext j
  show iblk m c 2 s j = _
  unfold iblk
  rw [View.read_apply]
  show V m c main_arg1 _ = m (c.tc.loc main_arg1) _
  rw [V_main_arg1]
  refine congrArg (m (c.tc.loc main_arg1)) (funext fun a => Fin.ext ?_)
  match a with
  | ⟨0, _⟩ => show win0_2.index s 0 * 3 + 1 * (j 0).val = (j 0).val; rw [hidx.1]; omega
  | ⟨1, _⟩ => show win0_2.index s 1 * 32 + 1 * (j 1).val = (j 1).val; rw [hidx.2]; omega

/-- The host lays the segment words out as a column before the region. -/
theorem V_main_v3_eq (c : Dev nD) :
    (V m c main_v3 : S100000x1.Idx → Elt Ideal .i32) = shapeCast S100000x1 (m ((c : Thread nD τ).loc main_arg3)) shapeCasts_S100000_S100000x1 := by
  dsimp only [V, V0]
  simp only [hostOps0, List.flatten_cons, List.flatten_nil, List.append_nil, List.cons_append, List.nil_append]
  after_results
  rfl

/-- The segment column of grid point `s` at row `k`: the word of point 5000 s + k. -/
theorem sblk_apply (c : Dev nD) (s : Fin cfg0.N) (k : Fin 5000) (hk : 5000 * s.val + k.val < 100000) :
    Accum.sblk m c s (ix2 k (0 : Fin 1)) = m ((c : Thread nD τ).loc main_arg3) (ix1 (⟨5000 * s.val + k.val, hk⟩ : Fin 100000)) := by
  have hidx : win0_1.index s 0 = s.val ∧ win0_1.index s 1 = 0 :=
    (by decide +kernel : ∀ t : Fin grid0.N, win0_1.index t 0 = t.val ∧ win0_1.index t 1 = 0) s
  show iblk m c 1 s (ix2 k (0 : Fin 1)) = _
  unfold iblk
  rw [View.read_apply]
  show V m c main_v3 _ = _
  rw [V_main_v3_eq]
  refine shapeCast_apply _ _ _ (ix1 (⟨5000 * s.val + k.val, hk⟩ : Fin 100000)) ?_
  rw [Shape.rowMajor_val_one, Shape.rowMajor_val_two]
  show 5000 * s.val + k.val = (win0_1.index s 0 * 5000 + 1 * k.val) * 1 + (win0_1.index s 1 * 1 + 1 * 0)
  rw [hidx.1, hidx.2]; omega

/-- The host lays the 32 filtration levels along 1024 lanes before the region: each level repeated over the 32 directions. -/
theorem V_main_v2_eq (c : Dev nD) :
    (V m c main_v2 : S1x1024.Idx → Elt Ideal .f32)
      = shapeCast S1x1024
          (broadcastInDim S32x32 ![0, 1] bcast_S32x1_S32x32_0_1
            (shapeCast S32x1 (m ((c : Thread nD τ).loc main_arg2)) shapeCasts_S32x1x1_S32x1))
          shapeCasts_S32x32_S1x1024 := by
  dsimp only [V, V0]
  simp only [hostOps0, List.flatten_cons, List.flatten_nil, List.append_nil, List.cons_append, List.nil_append]
  after_results
  rfl

/-- The lin row of every grid point at lane `l`: filtration level l / 32. -/
theorem lblk_apply (c : Dev nD) (s : Fin cfg0.N) (l : Fin 1024) (hl : l.val / 32 < 32) :
    Accum.lblk m c s (ix2 (0 : Fin 1) l)
      = m ((c : Thread nD τ).loc main_arg2) (ix3 (⟨l.val / 32, hl⟩ : Fin 32) (0 : Fin 1) (0 : Fin 1)) := by
  have hidx : win0_3.index s 0 = 0 ∧ win0_3.index s 1 = 0 :=
    (by decide +kernel : ∀ t : Fin grid0.N, win0_3.index t 0 = 0 ∧ win0_3.index t 1 = 0) s
  have hm : l.val % 32 < 32 := Nat.mod_lt _ (by decide)
  show iblk m c 3 s (ix2 (0 : Fin 1) l) = _
  unfold iblk
  rw [View.read_apply]
  show V m c main_v2 _ = _
  rw [V_main_v2_eq]
  -- lane l of the row is entry (l / 32, l mod 32) of the 32 by 32 array, which repeats column 0 of the 32 by 1 array: level l / 32
  rw [shapeCast_apply _ _ _ (ix2 (⟨l.val / 32, hl⟩ : Fin 32) (⟨l.val % 32, hm⟩ : Fin 32)) (by
      rw [Shape.rowMajor_val_two, Shape.rowMajor_val_two]
      show l.val / 32 * 32 + l.val % 32 = (win0_3.index s 0 * 1 + 1 * 0) * 1024 + (win0_3.index s 1 * 1024 + 1 * l.val)
      rw [hidx.1, hidx.2]; omega),
    broadcastInDim_apply _ _ _ _ (ix2 (⟨l.val / 32, hl⟩ : Fin 32) (0 : Fin 1)) (fun a => by
      match a with
      | ⟨0, _⟩ => show l.val / 32 = if (32 : Nat) = 1 then 0 else l.val / 32; rw [if_neg (by decide)]
      | ⟨1, _⟩ => show 0 = if (1 : Nat) = 1 then 0 else l.val % 32; rw [if_pos rfl])]
  refine shapeCast_apply _ _ _ (ix3 (⟨l.val / 32, hl⟩ : Fin 32) (0 : Fin 1) (0 : Fin 1)) ?_
  rw [Shape.rowMajor_val_three, Shape.rowMajor_val_two]
  show (l.val / 32 * 1 + 0) * 1 + 0 = l.val / 32 * 1 + 0
  omega

end Cert.KernelIdeal.Blocks

end
-- ==== Proof.Scatter.lean ====
/-
  The reference's segment sum, read at an index.

  The reference adds, into a zero array of 32 segments by 32 levels by 32 directions, the row n of the update array (32 levels by
  32 directions) at the segment its word names. An update at (n, r, t) lands at (w, r, t) where w is row n's segment word read as a
  signed integer, and is dropped when w is not one of 0 … 31. So the result at (b, r, t) is the sum, over the rows whose word is b,
  of the update at (n, r, t).
-/
import proofs.«426852_j18545668784265_3_alg».proof.Proof.Gen.ReferenceIdeal
import Idealize.ShloMosaic.Lib.ValueIdx
import Idealize.ShloMosaic.PureOps.Ideal.Laws

noncomputable section

namespace Cert.ReferenceIdeal.Segment

open Cert.ReferenceIdeal Cert.ReferenceIdeal.Gen Idealize.ShloMosaic Idealize.ShloMosaic.TcCoe Idealize.SL.Sem
open Idealize.ShloMosaic.ValueIdx

/-- Where update index `j` starts on the segment axis: row `j 0`'s word, read signed. -/
theorem start_0 (j : S100000x32x32.Idx) (idx : IVec S100000x1 32) :
    scatter_S32x32x32_S100000x1_S100000x32x32_12_0_0_1.start j idx 0 = (idx (ix2 (⟨(j 0).val, (j 0).isLt⟩ : Fin 100000) (0 : Fin 1))).toInt := by
  unfold ScatterDims.start
  rw [dif_pos (show (0 : Fin S32x32x32.rank) ∈ scatter_S32x32x32_S100000x1_S100000x32x32_12_0_0_1.scatterDimsToOperandDims by decide)]
  refine congrArg (fun z => (idx z).toInt) (funext fun b => Fin.ext ?_)
  match b with
  | ⟨0, _⟩ => rfl
  | ⟨1, _⟩ => rfl

/-- On the level and direction axes the window starts at 0, -/
theorem start_1 (j : S100000x32x32.Idx) (idx : IVec S100000x1 32) : scatter_S32x32x32_S100000x1_S100000x32x32_12_0_0_1.start j idx 1 = 0 := by
  unfold ScatterDims.start
  rw [dif_neg (show ¬(1 : Fin S32x32x32.rank) ∈ scatter_S32x32x32_S100000x1_S100000x32x32_12_0_0_1.scatterDimsToOperandDims by decide)]
theorem start_2 (j : S100000x32x32.Idx) (idx : IVec S100000x1 32) : scatter_S32x32x32_S100000x1_S100000x32x32_12_0_0_1.start j idx 2 = 0 := by
  unfold ScatterDims.start
  rw [dif_neg (show ¬(2 : Fin S32x32x32.rank) ∈ scatter_S32x32x32_S100000x1_S100000x32x32_12_0_0_1.scatterDimsToOperandDims by decide)]

/-- and the window coordinate is 0 on the segment axis and the update index's own level and direction on the other two. -/
theorem window_0 (j : S100000x32x32.Idx) : scatter_S32x32x32_S100000x1_S100000x32x32_12_0_0_1.window j 0 = 0 := by
  unfold ScatterDims.window
  rw [dif_neg (show ¬(0 : Fin S32x32x32.rank) ∈ scatter_S32x32x32_S100000x1_S100000x32x32_12_0_0_1.sKept by decide)]
theorem window_1 (j : S100000x32x32.Idx) : scatter_S32x32x32_S100000x1_S100000x32x32_12_0_0_1.window j 1 = (j 1).val := by
  unfold ScatterDims.window
  rw [dif_pos (show (1 : Fin S32x32x32.rank) ∈ scatter_S32x32x32_S100000x1_S100000x32x32_12_0_0_1.sKept by decide)]
  rfl
theorem window_2 (j : S100000x32x32.Idx) : scatter_S32x32x32_S100000x1_S100000x32x32_12_0_0_1.window j 2 = (j 2).val := by
  unfold ScatterDims.window
  rw [dif_pos (show (2 : Fin S32x32x32.rank) ∈ scatter_S32x32x32_S100000x1_S100000x32x32_12_0_0_1.sKept by decide)]
  rfl

/-- The segment word of row `n`, read as a signed integer. -/
abbrev word (idx : IVec S100000x1 32) (n : Fin 100000) : Int := (idx (ix2 n (0 : Fin 1))).toInt

/-- Update index `j` lands on `i` exactly when row `j 0`'s word is segment `i 0` and the level and the direction coincide; a word
    outside 0 … 31 lands nowhere. -/
theorem landed_iff (j : S100000x32x32.Idx) (idx : IVec S100000x1 32) (i : S32x32x32.Idx) :
    scatter_S32x32x32_S100000x1_S100000x32x32_12_0_0_1.resultIdx? j idx = some i
      ↔ word idx ⟨(j 0).val, (j 0).isLt⟩ = ((i 0).val : Int) ∧ (j 1).val = (i 1).val ∧ (j 2).val = (i 2).val := by
  have hi0 : (i 0).val < 32 := (i 0).isLt
  have hi1 : (i 1).val < 32 := (i 1).isLt
  have hi2 : (i 2).val < 32 := (i 2).isLt
  have hj1 : (j 1).val < 32 := (j 1).isLt
  have hj2 : (j 2).val < 32 := (j 2).isLt
  unfold ScatterDims.resultIdx?
  split
  · rename_i h
    have h0 := h 0
    rw [start_0, window_0] at h0
    constructor
    · intro e
      have e' := Option.some.inj e
      have c0 := congrArg (fun f => (f 0).val) e'
      have c1 := congrArg (fun f => (f 1).val) e'
      have c2 := congrArg (fun f => (f 2).val) e'
      simp only [start_0, window_0, start_1, window_1, start_2, window_2] at c0 c1 c2
      refine ⟨?_, ?_, ?_⟩
      · show (idx (ix2 (⟨(j 0).val, (j 0).isLt⟩ : Fin 100000) (0 : Fin 1))).toInt = _
        omega
      · omega
      · omega
    · rintro ⟨e0, e1, e2⟩
      refine congrArg some (funext fun a => Fin.ext ?_)
      match a with
      | ⟨0, _⟩ =>
        show ((scatter_S32x32x32_S100000x1_S100000x32x32_12_0_0_1.start j idx 0 + scatter_S32x32x32_S100000x1_S100000x32x32_12_0_0_1.window j 0).toNat) = (i 0).val
        rw [start_0, window_0]
        have : (idx (ix2 (⟨(j 0).val, (j 0).isLt⟩ : Fin 100000) (0 : Fin 1))).toInt = ((i 0).val : Int) := e0
        omega
      | ⟨1, _⟩ =>
        show ((scatter_S32x32x32_S100000x1_S100000x32x32_12_0_0_1.start j idx 1 + scatter_S32x32x32_S100000x1_S100000x32x32_12_0_0_1.window j 1).toNat) = (i 1).val
        rw [start_1, window_1]; omega
      | ⟨2, _⟩ =>
        show ((scatter_S32x32x32_S100000x1_S100000x32x32_12_0_0_1.start j idx 2 + scatter_S32x32x32_S100000x1_S100000x32x32_12_0_0_1.window j 2).toNat) = (i 2).val
        rw [start_2, window_2]; omega
  · rename_i h
    constructor
    · intro e; exact absurd e (by simp)
    · rintro ⟨e0, e1, e2⟩
      refine absurd (fun a => ?_) h
      match a with
      | ⟨0, _⟩ =>
        show 0 ≤ scatter_S32x32x32_S100000x1_S100000x32x32_12_0_0_1.start j idx 0 + scatter_S32x32x32_S100000x1_S100000x32x32_12_0_0_1.window j 0 ∧ scatter_S32x32x32_S100000x1_S100000x32x32_12_0_0_1.start j idx 0 + scatter_S32x32x32_S100000x1_S100000x32x32_12_0_0_1.window j 0 < ((32 : Nat) : Int)
        rw [start_0, window_0]
        have : (idx (ix2 (⟨(j 0).val, (j 0).isLt⟩ : Fin 100000) (0 : Fin 1))).toInt = ((i 0).val : Int) := e0
        omega
      | ⟨1, _⟩ =>
        show 0 ≤ scatter_S32x32x32_S100000x1_S100000x32x32_12_0_0_1.start j idx 1 + scatter_S32x32x32_S100000x1_S100000x32x32_12_0_0_1.window j 1 ∧ scatter_S32x32x32_S100000x1_S100000x32x32_12_0_0_1.start j idx 1 + scatter_S32x32x32_S100000x1_S100000x32x32_12_0_0_1.window j 1 < ((32 : Nat) : Int)
        rw [start_1, window_1]; omega
      | ⟨2, _⟩ =>
        show 0 ≤ scatter_S32x32x32_S100000x1_S100000x32x32_12_0_0_1.start j idx 2 + scatter_S32x32x32_S100000x1_S100000x32x32_12_0_0_1.window j 2 ∧ scatter_S32x32x32_S100000x1_S100000x32x32_12_0_0_1.start j idx 2 + scatter_S32x32x32_S100000x1_S100000x32x32_12_0_0_1.window j 2 < ((32 : Nat) : Int)
        rw [start_2, window_2]; omega

/-- The segment sum at segment `b`, level `r`, direction `t`: the operand's entry plus the updates at (n, r, t) of the rows whose word is `b`. -/
theorem segment_apply (e : FVec Ideal S32x32x32 .f32) (idx : IVec S100000x1 32)
    (upd : FVec Ideal S100000x32x32 .f32) (b r t : Fin 32) :
    Host.scatterAdd (F := Ideal) (φ := .f32) scatter_S32x32x32_S100000x1_S100000x32x32_12_0_0_1 e idx upd (ix3 b r t)
      = e (ix3 b r t) + ∑ n : Fin 100000, if word idx n = (b.val : Int) then upd (ix3 n r t) else 0 := by
  show Ideal.hostScatterAdd scatter_S32x32x32_S100000x1_S100000x32x32_12_0_0_1 e idx upd (ix3 b r t) = _
  unfold Ideal.hostScatterAdd
  refine congrArg (e (ix3 b r t) + ·) ?_
  rw [← Finset.sum_filter]
  refine Finset.sum_bij' (fun j _ => (⟨(j 0).val, (j 0).isLt⟩ : Fin 100000)) (fun n _ => ix3 n r t) ?_ ?_ ?_ ?_ ?_
  · -- an update that lands on (b, r, t) comes from a row whose word is b
    intro j hj
    rw [Finset.mem_filter] at hj ⊢
    exact ⟨Finset.mem_univ _, ((landed_iff j idx (ix3 b r t)).mp hj.2).1⟩
  · -- and a row whose word is b sends its entry at (r, t) there
    intro n hn
    rw [Finset.mem_filter] at hn ⊢
    exact ⟨Finset.mem_univ _, (landed_iff (ix3 n r t) idx (ix3 b r t)).mpr ⟨hn.2, rfl, rfl⟩⟩
  · intro j hj
    rw [Finset.mem_filter] at hj
    obtain ⟨_, e1, e2⟩ := (landed_iff j idx (ix3 b r t)).mp hj.2
    funext a
    apply Fin.ext
    match a with
    | ⟨0, _⟩ => rfl
    | ⟨1, _⟩ => exact e1.symm
    | ⟨2, _⟩ => exact e2.symm
  · intro n hn
    rfl
  · intro j hj
    rw [Finset.mem_filter] at hj
    obtain ⟨_, e1, e2⟩ := (landed_iff j idx (ix3 b r t)).mp hj.2
    refine congrArg upd (funext fun a => Fin.ext ?_)
    match a with
    | ⟨0, _⟩ => rfl
    | ⟨1, _⟩ => exact e1
    | ⟨2, _⟩ => exact e2

end Cert.ReferenceIdeal.Segment

end
-- ==== Proof.Logistic.lean ====
/-
  The logistic function in its two spellings, on the extended reals.

  For every extended real z,
      1/2 · tanh (1/2 · z) + 1/2  =  1 / (1 + e^(-z)).
  On a real z this is the textbook identity  tanh (z/2) = (1 - e^(-z)) / (1 + e^(-z)).
  At +∞ the left side is 1/2 · 1 + 1/2 = 1 and the right side 1 / (1 + 0) = 1; at -∞ the left side is
  1/2 · (-1) + 1/2 = 0 and the right side 1 / (1 + ∞) = 0. So the two spellings agree everywhere, and
  no finiteness of z is needed to pass from one to the other.
-/
import Idealize.ShloMosaic.PureOps.Ideal
import Idealize.ShloMosaic.PureOps.Ideal.Laws
import Mathlib.Analysis.SpecialFunctions.Trigonometric.DerivHyp

noncomputable section

namespace Cert.Logistic

open Idealize.ShloMosaic

/-- The real identity: the inverse of 1 + e^(-r) is 1/2 · tanh (r/2) + 1/2. -/
theorem real_logistic_eq_tanh (r : ℝ) :
    (1 + Real.exp (-r))⁻¹ = (1 / 2 : ℝ) * Real.tanh ((1 / 2 : ℝ) * r) + 1 / 2 := by
  -- with e = exp (r/2) > 0: exp (-(r/2)) = e⁻¹ and exp (-r) = e⁻¹ · e⁻¹, and both sides are e² / (e² + 1)
  have he : 0 < Real.exp ((1 / 2 : ℝ) * r) := Real.exp_pos _
  have h2 : Real.exp (-r) = (Real.exp ((1 / 2 : ℝ) * r))⁻¹ * (Real.exp ((1 / 2 : ℝ) * r))⁻¹ := by
    rw [← Real.exp_neg, ← Real.exp_add]; congr 1; ring
  rw [Real.tanh_eq_sinh_div_cosh, Real.sinh_eq, Real.cosh_eq, h2, Real.exp_neg]
  generalize Real.exp ((1 / 2 : ℝ) * r) = e at he
  have he' : e ≠ 0 := he.ne'
  have hs : e * e + 1 ≠ 0 := by positivity
  field_simp
  ring

/-- The word 0x3F000000 is one half, -/
theorem ofBits_half : Ideal.ofBits .f32 0x3F000000#32 = ((1 / 2 : ℝ) : EReal) := by
  simp [Ideal.ofBits, Ideal.ieee]
  -- the significand 2^23 over 2^24
  exact_mod_cast (by norm_num : (8388608 : ℝ) * ((2 : ℝ) ^ 24)⁻¹ = 2⁻¹)

/-- and the word 0x3F800000 is one. -/
theorem ofBits_one : Ideal.ofBits .f32 0x3F800000#32 = (1 : EReal) := by
  simp [Ideal.ofBits, Ideal.ieee]
  -- the significand 2^23 over 2^23
  exact_mod_cast (by norm_num : (8388608 : ℝ) * ((2 : ℝ) ^ 23)⁻¹ = 1)

/-- On every extended real: 1/2 · tanh (1/2 · z) + 1/2 is the logistic function 1 / (1 + e^(-z)). The real case is
    `real_logistic_eq_tanh`; at -∞ both sides are 0, at +∞ both are 1. -/
theorem half_tanh_half_add_half (z : EReal) :
    ((1 / 2 : ℝ) : EReal) * Ideal.tanh (((1 / 2 : ℝ) : EReal) * z) + ((1 / 2 : ℝ) : EReal) = Ideal.logistic z := by
  have hpos : (0 : EReal) < ((1 / 2 : ℝ) : EReal) := by exact_mod_cast (by norm_num : (0 : ℝ) < 1 / 2)
  induction z using EReal.rec with
  | bot =>
    rw [EReal.mul_bot_of_pos hpos, Ideal.tanh_bot, Ideal.logistic_bot]
    -- 1/2 · (-1) + 1/2 = 0, in the reals
    have h : (-1 : EReal) = ((-1 : ℝ) : EReal) := by rw [EReal.coe_neg, EReal.coe_one]
    rw [h, ← EReal.coe_mul, ← EReal.coe_add]
    exact_mod_cast (by norm_num : (1 / 2 : ℝ) * (-1) + 1 / 2 = 0)
  | coe r =>
    rw [← EReal.coe_mul, Ideal.tanh_coe, ← EReal.coe_mul, ← EReal.coe_add, Ideal.logistic_coe, real_logistic_eq_tanh]
  | top =>
    rw [EReal.mul_top_of_pos hpos, Ideal.tanh_top, Ideal.logistic_top]
    -- 1/2 · 1 + 1/2 = 1, in the reals
    rw [mul_one, ← EReal.coe_add]
    exact_mod_cast (by norm_num : (1 / 2 : ℝ) + 1 / 2 = 1)

/-- The logistic function as the reference program spells it. -/
theorem logistic_spelled (z : EReal) : Ideal.div 1 (1 + Ideal.exp (-z)) = Ideal.logistic z := rfl

end Cert.Logistic

end
-- ==== Proof.RefSide.lean ====
/-
  The reference's unnormalised result, read at an index.

  The reference computes, for every filtration level r, point n and direction t, the logistic function of 100 · (lin r − height n t),
  with height n t = x n 0 · v 0 t + x n 1 · v 1 t + x n 2 · v 2 t, transposes it so that the point comes first, and sums the rows of each
  segment. So at segment b, level r and direction t it holds the sum over the points n whose segment word is b of that logistic value.
-/
import proofs.«426852_j18545668784265_3_alg».proof.Proof.Gen.ReferenceIdeal.Read
import proofs.«426852_j18545668784265_3_alg».proof.Proof.Scatter
import proofs.«426852_j18545668784265_3_alg».proof.Proof.Logistic

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx

/-- The height of point `n` along direction `t`. -/
def height (x : FVec Ideal S100000x3 .f32) (v : FVec Ideal S3x32 .f32) (n : Fin 100000) (t : Fin 32) : EReal :=
  ∑ k : Fin 3, x (ix2 n k) * v (ix2 k t)

/-- The filtration value of point `n` at level `r` and direction `t`. -/
def filt (x : FVec Ideal S100000x3 .f32) (v : FVec Ideal S3x32 .f32) (lin : FVec Ideal S32x1x1 .f32) (n : Fin 100000) (r t : Fin 32) : EReal :=
  Ideal.logistic (Ideal.ofBits .f32 0x42C80000#32 * (lin (ix3 r (0 : Fin 1) (0 : Fin 1)) - height x v n t))

/-- The update array at point `n`, level `r`, direction `t`. -/
theorem update_apply (x : FVec Ideal S100000x3 .f32) (v : FVec Ideal S3x32 .f32) (lin : FVec Ideal S32x1x1 .f32) (n : Fin 100000) (r t : Fin 32) :
    val_main_v13 (F := Ideal) x v lin (ix3 n r t) = filt x v lin n r t := by
  rw [val_main_v13_apply, val_main_v12_apply, val_main_v11_apply, val_main_cst_1_apply, val_main_v10_apply, val_main_v9_apply,
    val_main_cst_0_apply, val_main_v8_apply, val_main_v7_apply, val_main_v6_apply, val_main_v5_apply, val_main_cst_apply,
    val_main_v4_apply, val_main_v2_apply, val_main_v3_apply, val_main_v1_apply, val_main_v0_apply]
  -- the transposition puts the level first; the level reads lin, the point and the direction read the heights
  have e2 : idx_main_v2 (idx_main_v13 (ix3 n r t)) = ix3 r (0 : Fin 1) (0 : Fin 1) :=
    funext fun a => Fin.ext (by
      match a with
      | ⟨0, _⟩ => rfl
      | ⟨1, _⟩ => rfl
      | ⟨2, _⟩ => rfl)
  have el : ∀ k : Fin 3, lidx_main_v0 (idx_main_v1 (idx_main_v3 (idx_main_v13 (ix3 n r t)))) k = ix2 n k := fun k =>
    funext fun a => Fin.ext (by
      match a with
      | ⟨0, _⟩ => rfl
      | ⟨1, _⟩ => rfl)
  have er : ∀ k : Fin 3, ridx_main_v0 (idx_main_v1 (idx_main_v3 (idx_main_v13 (ix3 n r t)))) k = ix2 k t := fun k =>
    funext fun a => Fin.ext (by
      match a with
      | ⟨0, _⟩ => rfl
      | ⟨1, _⟩ => rfl)
  simp only [e2, el, er, Ideal.hostDivf_def, Ideal.hostUnary_exp_def, Ideal.hostNegf_def, Ideal.ofBits_def, Cert.Logistic.ofBits_one]
  rfl

/-- The segment word of point `n`, read as a signed integer. -/
abbrev wordOf (idx : IVec S100000 32) (n : Fin 100000) : Int := (idx (ix1 n)).toInt

/-- The reference's unnormalised result at segment `b`, level `r`, direction `t`: the filtration values of the points of segment `b`, summed. -/
theorem segsum_apply (x : FVec Ideal S100000x3 .f32) (v : FVec Ideal S3x32 .f32) (lin : FVec Ideal S32x1x1 .f32) (idx : IVec S100000 32)
    (b r t : Fin 32) :
    val_main_v16 (F := Ideal) x v lin idx (ix3 b r t)
      = ∑ n : Fin 100000, if wordOf idx n = (b.val : Int) then filt x v lin n r t else 0 := by
  unfold val_main_v16
  rw [Segment.segment_apply]
  -- the sum starts from a zero array
  have hz : val_main_v14 (F := Ideal) (ix3 b r t) = 0 := by
    rw [val_main_v14_apply, val_main_cst_2_apply, Ideal.ofBits_def, Ideal.ofBits_zero_f32]
  rw [hz, zero_add]
  refine Finset.sum_congr rfl fun n _ => ?_
  -- the index column at row n is point n's word
  have hw : Segment.word (val_main_v15 (F := Ideal) idx) n = wordOf idx n := by
    show (val_main_v15 (F := Ideal) idx (ix2 n (0 : Fin 1))).toInt = (idx (ix1 n)).toInt
    rw [val_main_v15_apply]
    exact congrArg (fun z => (idx z).toInt) (funext fun a => Fin.ext (by
      match a with
      | ⟨0, _⟩ => rfl))
  rw [hw, update_apply]

end Cert.ReferenceIdeal.RefValue

end
-- ==== Proof.Regroup.lean ====
/-
  Two small facts the comparison of the two programs rests on.

  The 100000 points are the 20 tiles of 5000: point n is row n mod 5000 of tile n / 5000, so a sum over the points is the double sum over the
  tiles and their rows. And a 32-bit word equals the word of a number b below 32 exactly when its value as a signed integer is b: a word
  that is negative, or 32 or more, is the word of no such b.
-/
import Mathlib.Algebra.BigOperators.Fin
import Mathlib.Data.Fintype.BigOperators

noncomputable section

namespace Cert.Regroup

/-- Tile `s`, row `k`, as a point. -/
def pointOf (s : Fin 20) (k : Fin 5000) : Fin 100000 := ⟨5000 * s.val + k.val, by have := s.isLt; have := k.isLt; omega⟩

/-- The points as pairs of a tile and a row. -/
def tiles : Fin 20 × Fin 5000 ≃ Fin 100000 where
  toFun p := pointOf p.1 p.2
  invFun n := (⟨n.val / 5000, by have := n.isLt; omega⟩, ⟨n.val % 5000, Nat.mod_lt _ (by decide)⟩)
  left_inv p := by
    obtain ⟨s, k⟩ := p
    have := s.isLt; have := k.isLt
    apply Prod.ext <;> apply Fin.ext <;> simp only [pointOf] <;> omega
  right_inv n := by
    apply Fin.ext
    simp only [pointOf]
    omega

/-- A sum over the points is the double sum over the tiles and their rows, in any commutative monoid. -/
theorem sum_points {M : Type*} [AddCommMonoid M] (g : Fin 100000 → M) :
    ∑ n : Fin 100000, g n = ∑ s : Fin 20, ∑ k : Fin 5000, g (pointOf s k) := by
  rw [← Equiv.sum_comp tiles g, Fintype.sum_prod_type]
  rfl

/-- The word of a number below 32 has that number as its signed value. -/
theorem toInt_ofNat_small (b : Fin 32) : (BitVec.ofNat 32 b.val).toInt = (b.val : Int) := by
  have hb := b.isLt
  have h1 : (BitVec.ofNat 32 b.val).toNat = b.val := by
    rw [BitVec.toNat_ofNat]
    exact Nat.mod_eq_of_lt (Nat.lt_of_lt_of_le hb (by decide))
  rw [BitVec.toInt_eq_toNat_cond, h1, if_pos (by omega)]

/-- A word is the word of `b` (below 32) exactly when its signed value is `b`. -/
theorem word_eq_iff (w : BitVec 32) (b : Fin 32) : w = BitVec.ofNat 32 b.val ↔ w.toInt = (b.val : Int) := by
  constructor
  · rintro rfl
    exact toInt_ofNat_small b
  · intro h
    apply BitVec.eq_of_toInt_eq
    rw [h, toInt_ofNat_small]

end Cert.Regroup

end
-- ==== Proof.Bridge.lean ====
/-
  The two programs compute the same sums.

  The kernel program's unnormalised result at segment b, level r and direction t is the sum of the two halves of the partial sums at
  lane 32 r + t, that is the sum over all twenty tiles and their 5000 rows of the row's one-hot entry at b times the filtration value of
  the row's point in the hyperbolic-tangent form. A row's one-hot entry is 1 exactly when its point's segment word is b, and the
  hyperbolic-tangent form is the logistic function; row k of tile s is point 5000 s + k. So the kernel's value is the sum over the points
  of segment b of the logistic filtration value: the reference's segment sum.
-/
import proofs.«426852_j18545668784265_3_alg».proof.Proof.Tail
import proofs.«426852_j18545668784265_3_alg».proof.Proof.Blocks
import proofs.«426852_j18545668784265_3_alg».proof.Proof.RefSide
import proofs.«426852_j18545668784265_3_alg».proof.Proof.Regroup

set_option maxRecDepth 16384

noncomputable section

namespace Cert.Bridge

open Cert.KernelIdeal Cert.KernelIdeal.Gen Idealize.ShloMosaic Idealize.ShloMosaic.TcCoe Idealize.SL.Sem
open Idealize.ShloMosaic.ValueIdx

/-- The two halves added and read by segment, level and direction: at (b, r, t), the two halves at lane 32 r + t. -/
theorem combine_apply (P : FVec Ideal S2x32x1024 .f32) (b r t : Fin 32) (hl : 32 * r.val + t.val < 1024) :
    KernelIdeal.Result.combine P (ix3 b r t)
      = P (ix3 (0 : Fin 2) b (⟨32 * r.val + t.val, hl⟩ : Fin 1024)) + P (ix3 (1 : Fin 2) b (⟨32 * r.val + t.val, hl⟩ : Fin 1024)) := by
  unfold KernelIdeal.Result.combine
  rw [shapeCast_apply _ _ _ (ix2 b (⟨32 * r.val + t.val, hl⟩ : Fin 1024)) (by
      rw [Shape.rowMajor_val_two, Shape.rowMajor_val_three]
      show b.val * 1024 + (32 * r.val + t.val) = (b.val * 32 + r.val) * 32 + t.val
      omega),
    addf_apply, shapeCast_1ab_ab_apply, shapeCast_1ab_ab_apply]
  -- the two cuts along the first axis: half 0 and half 1
  rw [extractStridedSlice_apply _ P slices_S2x32x1024_S1x32x1024_0_0_0 (ix3 (0 : Fin 1) b (⟨32 * r.val + t.val, hl⟩ : Fin 1024))
      (ix3 (0 : Fin 2) b (⟨32 * r.val + t.val, hl⟩ : Fin 1024)) (fun ax => by
        match ax with
        | ⟨0, _⟩ => rfl
        | ⟨1, _⟩ => exact (Nat.zero_add _).symm
        | ⟨2, _⟩ => exact (Nat.zero_add _).symm),
    extractStridedSlice_apply _ P slices_S2x32x1024_S1x32x1024_1_0_0 (ix3 (0 : Fin 1) b (⟨32 * r.val + t.val, hl⟩ : Fin 1024))
      (ix3 (1 : Fin 2) b (⟨32 * r.val + t.val, hl⟩ : Fin 1024)) (fun ax => by
        match ax with
        | ⟨0, _⟩ => rfl
        | ⟨1, _⟩ => exact (Nat.zero_add _).symm
        | ⟨2, _⟩ => exact (Nat.zero_add _).symm)]

section Tile
variable (m : (ℓ : Loc nD τ sig) → Buf (Elt Ideal) ℓ)

/-- The program's four arguments on core `c`. -/
abbrev argX (c : Dev nD) : FVec Ideal ReferenceIdeal.S100000x3 .f32 := m ((c : Thread nD τ).loc main_arg0)
abbrev argV (c : Dev nD) : FVec Ideal ReferenceIdeal.S3x32 .f32 := m ((c : Thread nD τ).loc main_arg1)
abbrev argL (c : Dev nD) : FVec Ideal ReferenceIdeal.S32x1x1 .f32 := m ((c : Thread nD τ).loc main_arg2)
abbrev argI (c : Dev nD) : IVec ReferenceIdeal.S100000 32 := m ((c : Thread nD τ).loc main_arg3)

/-- One tile's contribution at segment `b`, level `r`, direction `t`: the filtration values of the tile's points of segment `b`. -/
theorem contrib_eq (c : Dev nD) (s : Fin 20) (b r t : Fin 32) (hl : 32 * r.val + t.val < 1024) :
    Accum.contrib m c s.val (ix3 (0 : Fin 1) b (⟨32 * r.val + t.val, hl⟩ : Fin 1024))
      = ∑ k : Fin 5000,
          if ReferenceIdeal.RefValue.wordOf (argI m c) (Regroup.pointOf s k) = (b.val : Int)
          then ReferenceIdeal.RefValue.filt (argX m c) (argV m c) (argL m c) (Regroup.pointOf s k) r t else 0 := by
  have hs : s.val < cfg0.N := by rw [show cfg0.N = 20 from N_0]; exact s.isLt
  refine (Accum.contrib_of_lt m c (⟨s.val, hs⟩ : Fin cfg0.N) (ix3 (0 : Fin 1) b (⟨32 * r.val + t.val, hl⟩ : Fin 1024))).trans ?_
  rw [Point.tile_ix3]
  unfold Point.tileAt
  refine Finset.sum_congr rfl fun k _ => ?_
  have hk : 5000 * s.val + k.val < 100000 := by have := s.isLt; have := k.isLt; omega
  have hr : (32 * r.val + t.val) / 32 < 32 := by have := r.isLt; have := t.isLt; omega
  rw [Rows.onehot_apply, Rows.heights_apply, Blocks.sblk_apply m c ⟨s.val, hs⟩ k hk,
    Blocks.lblk_apply m c ⟨s.val, hs⟩ (⟨32 * r.val + t.val, hl⟩ : Fin 1024) hr, Blocks.vblk_eq,
    Blocks.xblk_apply m c ⟨s.val, hs⟩ k 0 hk, Blocks.xblk_apply m c ⟨s.val, hs⟩ k 1 hk, Blocks.xblk_apply m c ⟨s.val, hs⟩ k 2 hk,
    Logistic.ofBits_half, Logistic.half_tanh_half_add_half]
  -- lane 32 r + t carries level r and direction t; row k of tile s is point 5000 s + k
  have e1 : (⟨((⟨32 * r.val + t.val, hl⟩ : Fin 1024) : ℕ) / 32, hr⟩ : Fin 32) = r :=
    Fin.ext (by show (32 * r.val + t.val) / 32 = r.val; have := t.isLt; omega)
  have e2 : Rows.dirOf (Point.laneOf (⟨32 * r.val + t.val, hl⟩ : Fin 1024)) = t :=
    Fin.ext (by show (32 * r.val + t.val) % 128 % 32 = t.val; have := t.isLt; omega)
  have e3 : (⟨5000 * ((⟨s.val, hs⟩ : Fin cfg0.N) : ℕ) + k.val, hk⟩ : Fin 100000) = Regroup.pointOf s k := rfl
  rw [e1, e2, e3, Ideal.ofBits_zero_f32, zero_add]
  by_cases hW : m ((c : Thread nD τ).loc main_arg3) (ix1 (Regroup.pointOf s k)) = BitVec.ofNat 32 b.val
  · -- the point is of segment b: its filtration value, in the reference's spelling of the height
    have hW' : ReferenceIdeal.RefValue.wordOf (argI m c) (Regroup.pointOf s k) = (b.val : Int) := (Regroup.word_eq_iff _ b).mp hW
    rw [if_pos hW, one_mul, if_pos hW']
    unfold ReferenceIdeal.RefValue.filt ReferenceIdeal.RefValue.height
    rw [Fin.sum_univ_three]
  · -- the point is of another segment, or of none
    have hW' : ¬ReferenceIdeal.RefValue.wordOf (argI m c) (Regroup.pointOf s k) = (b.val : Int) := fun h => hW ((Regroup.word_eq_iff _ b).mpr h)
    rw [if_neg hW, zero_mul, if_neg hW']

/-- The two halves' sums together are the sum over all twenty tiles. -/
theorem halves_sum (c : Dev nD) (b : Fin 32) (l : Fin 1024) :
    KernelIdeal.Partial.halfSum m c (0 : Fin 2) b l + KernelIdeal.Partial.halfSum m c (1 : Fin 2) b l
      = ∑ s : Fin 20, Accum.contrib m c s.val (ix3 (0 : Fin 1) b l) := by
  unfold KernelIdeal.Partial.halfSum
  have h1 : Finset.Icc (10 * ((0 : Fin 2) : ℕ)) (10 * ((0 : Fin 2) : ℕ) + 9) = Finset.Ico 0 10 := by decide
  have h2 : Finset.Icc (10 * ((1 : Fin 2) : ℕ)) (10 * ((1 : Fin 2) : ℕ) + 9) = Finset.Ico 10 20 := by decide
  rw [h1, h2, Finset.sum_Ico_consecutive _ (by decide) (by decide), ← Finset.range_eq_Ico, Finset.sum_range]

/-- The kernel program's unnormalised result is the reference's, at the same arguments. -/
theorem unnormalised_eq (c : Dev nD) :
    KernelIdeal.Result.combine (KernelIdeal.Partial.partials m c)
      = ReferenceIdeal.Read.val_main_v16 (F := Ideal) (argX m c) (argV m c) (argL m c) (argI m c) := by
  funext i
  obtain ⟨b, r, t, rfl⟩ : ∃ (b r t : Fin 32), i = ix3 b r t := ⟨i 0, i 1, i 2, eq_ix3 i⟩
  have hl : 32 * r.val + t.val < 1024 := by have := r.isLt; have := t.isLt; omega
  rw [combine_apply _ b r t hl, ReferenceIdeal.RefValue.segsum_apply, Regroup.sum_points]
  -- the two halves at lane 32 r + t: all twenty tiles; each tile: its points of segment b
  show KernelIdeal.Partial.halfSum m c (0 : Fin 2) b (⟨32 * r.val + t.val, hl⟩ : Fin 1024)
      + KernelIdeal.Partial.halfSum m c (1 : Fin 2) b (⟨32 * r.val + t.val, hl⟩ : Fin 1024) = _
  rw [halves_sum]
  exact Finset.sum_congr rfl fun s _ => contrib_eq m c s b r t hl

/-- The reference ends with the same normalisation, so its result is the kernel program's. -/
theorem reference_result (c : Dev nD) :
    ReferenceIdeal.Read.val_main_v20 (F := Ideal) (argX m c) (argV m c) (argL m c) (argI m c)
      = KernelIdeal.Result.normalise (KernelIdeal.Result.combine (KernelIdeal.Partial.partials m c)) := by
  rw [unnormalised_eq]
  rfl

end Tile

end Cert.Bridge

end
-- ==== Proof.lean ====
/-
  An Euler-characteristic-transform kernel against its jnp reference, over the extended reals.

  Both programs take 100000 points x in three dimensions, 32 directions v, 32 filtration levels lin and a segment word per point. For
  every point n, level r and direction t the filtration value is the logistic function of 100 · (lin r − height n t), where
  height n t = x n 0 · v 0 t + x n 1 · v 1 t + x n 2 · v 2 t; the result at segment b is the sum of the filtration values of the points whose
  word is b, divided by the segment's maximum over levels and directions.

  The reference writes the logistic function as 1 / (1 + e^(−z)) and sums by a scatter-add, which drops a point whose word is not one of
  0 … 31. The kernel writes it as 1/2 · tanh (z/2) + 1/2, turns each word into a one-hot row by comparing it with 0 … 31 (a word outside that
  range gives a zero row), and sums by a matrix product with the one-hot rows, tile by tile: twenty tiles of 5000 points in two halves of ten,
  each half accumulating in a block carried from tile to tile, each tile adding its contribution in eight groups of 128 lanes. The two
  halves are added and normalised on the host as in the reference.

  The two spellings of the logistic function agree on every extended real, the infinities included; the sums agree because the extended
  reals are a commutative monoid in which 0 · x = 0 and 1 · x = x. So the claim needs nothing of the inputs: the precondition is never used.
-/
import proofs.«426852_j18545668784265_3_alg».proof.Defs
import proofs.«426852_j18545668784265_3_alg».proof.Proof.Gen.Kernel
import proofs.«426852_j18545668784265_3_alg».proof.Proof.Gen.Kernel.Skeleton
import proofs.«426852_j18545668784265_3_alg».proof.Proof.Gen.Kernel.Launch
import proofs.«426852_j18545668784265_3_alg».proof.Proof.Gen.Kernel.Points
import proofs.«426852_j18545668784265_3_alg».proof.Proof.Gen.Kernel.Frame
import proofs.«426852_j18545668784265_3_alg».proof.Proof.Gen.KernelIdeal
import proofs.«426852_j18545668784265_3_alg».proof.Proof.Gen.KernelIdeal.Skeleton
import proofs.«426852_j18545668784265_3_alg».proof.Proof.Gen.KernelIdeal.Launch
import proofs.«426852_j18545668784265_3_alg».proof.Proof.Gen.KernelIdeal.Points
import proofs.«426852_j18545668784265_3_alg».proof.Proof.Gen.KernelIdeal.Frame
import proofs.«426852_j18545668784265_3_alg».proof.Proof.Gen.ReferenceIdeal
import proofs.«426852_j18545668784265_3_alg».proof.Proof.Gen.Pre_finite_inputs
import proofs.«426852_j18545668784265_3_alg».proof.Proof.Gen.ReferenceIdeal.Run
import proofs.«426852_j18545668784265_3_alg».proof.Proof.Gen.ReferenceIdeal.Read
import proofs.«426852_j18545668784265_3_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the normalised segment sums of the filtration values: the kernel
    program by its tiles' contributions, the reference by its scatter-add. -/
theorem algebraic : Cert.algebraic_KernelIdeal_ReferenceIdeal := by
  intro m ρ m' ρ' _ hagree
  refine ⟨fun c => Cert.KernelIdeal.Result.normalise (Cert.KernelIdeal.Result.combine (Cert.KernelIdeal.Partial.partials m c)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2.1, (hagree c).2.2.1, (hagree c).2.2.2]
  exact Cert.Bridge.reference_result m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
